-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x4096 : Shape := ⟨2, ![32, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S8192x4096 .f32) (main_arg1 : IVec S512x4096 32) (main_arg2 : FVec F S32x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S8192x4096 : Shape := ⟨2, ![8192, 4096]⟩
abbrev S512x4096 : Shape := ⟨2, ![512, 4096]⟩
abbrev S32x4096 : Shape := ⟨2, ![32, 4096]⟩
abbrev S1024x1024 : Shape := ⟨2, ![1024, 1024]⟩
abbrev S128x512 : Shape := ⟨2, ![128, 512]⟩
abbrev S8x512 : Shape := ⟨2, ![8, 512]⟩
abbrev S1024x512 : Shape := ⟨2, ![1024, 512]⟩
abbrev S4x1024x512 : Shape := ⟨3, ![4, 1024, 512]⟩
abbrev S128x8x512 : Shape := ⟨3, ![128, 8, 512]⟩
abbrev S128x1x512 : Shape := ⟨3, ![128, 1, 512]⟩
abbrev S8x1x512 : Shape := ⟨3, ![8, 1, 512]⟩
abbrev S8x128x512 : Shape := ⟨3, ![8, 128, 512]⟩
abbrev S1x1024x512 : Shape := ⟨3, ![1, 1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S8192x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S128x512, .i32⟩
  | .local _ .vmem, ⟨3, _⟩ => ⟨S128x512, .i32⟩
  | .local _ .vmem, ⟨4, _⟩ => ⟨S8x512, .f32⟩
  | .local _ .vmem, ⟨5, _⟩ => ⟨S8x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S4x1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v41 : Index := Scalar.indexCast arg2
  let c0_16 : Index := 0#32
  let c0_17 : Index := 0#32
  ![v41.toNat, 0, 0]
def k0_off2 (i : grid0.Coords) : Fin 3 → Nat :=
  let arg2 : BitVec 32 := BitVec.ofNat 32 (i 2).val
  let v8 : Index := Scalar.indexCast arg2
  let c0_4 : Index := 0#32
  let c0_5 : Index := 0#32
  ![v8.toNat, 0, 0]
def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  iota_S128x8x512_d1_w32 : S128x8x512.Iotas .tc 32 [1]
  shapeCasts_S128x512_S128x1x512 : S128x512.ShapeCasts S128x1x512
  shapeCasts_S128x1x512_S128x1x512 : S128x1x512.ShapeCasts S128x1x512
  broadcasts_S128x1x512_S128x8x512 : S128x1x512.Broadcasts S128x8x512
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  h_S1x1024x512 : 0 < S1x1024x512.numel
  shapeCasts_S1x1024x512_S1024x512 : S1x1024x512.ShapeCasts S1024x512
  shapeCasts_S1024x512_S1x1024x512 : S1024x512.ShapeCasts S1x1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x512_S1024x512_1_0_0_1_n_n_wf : DotDims.WF S1024x1024 S1024x512 S1024x512 [1] [0] [0] [1] [] []
  hrank0 : 0 < grid0.rank
  k0_off1_inb : ∀ i : grid0.Coords, ∀ (k0_h1 : k0_cond1 i = 1#1), ∀ a, (k0_off1 i) a + S1x1024x512.size a ≤ S4x1024x512.size a
  k0_off1_packedbf16 : ∀ i : grid0.Coords, ∀ (k0_h1 : k0_cond1 i = 1#1), (Rect.unit (s := S4x1024x512) (k0_off1 i) S1x1024x512.size (k0_off1_inb i k0_h1)).PackedRows (EltTy.packing .bf16)
  k0_off2_inb : ∀ i : grid0.Coords, ∀ a, (k0_off2 i) a + S1x1024x512.size a ≤ S4x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x4096.size a
  hwx0_1 : ∀ i : grid0.Coords, EltTy.bits .i32 = 32 ∨ (Rect.block (s := S512x4096) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x4096 : Shape := ⟨2, ![512, 4096]⟩
abbrev S32x4096 : Shape := ⟨2, ![32, 4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x128x4096 : Shape := ⟨3, ![32, 128, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S512x1x4096, .i32⟩
  | .hbm, ⟨8, _⟩ => ⟨S1x8x1, .i32⟩
  | .hbm, ⟨9, _⟩ => ⟨S512x8x4096, .i32⟩
  | .hbm, ⟨10, _⟩ => ⟨S512x8x4096, .i32⟩
  | .hbm, ⟨11, _⟩ => ⟨S512x8x4096, .i32⟩
  | .hbm, ⟨12, _⟩ => ⟨S_, .i32⟩
  | .hbm, ⟨13, _⟩ => ⟨S512x8x4096, .i32⟩
  | .hbm, ⟨14, _⟩ => ⟨S512x8x4096, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S32x128x4096, .f32⟩
  | .hbm, ⟨21, _⟩ => ⟨S4096x4096, .f32⟩
  | .hbm, ⟨22, _⟩ => ⟨S4096x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S_S4096x4096 : S_.BroadcastsInDim S4096x4096 (![] : Fin 0 → Fin S4096x4096.rank)
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Setup.lean ====
/-
  The grid of the quantized matmul kernel is (j, i, k) = (8, 8, 4): j the column strip of the result, i its row
  strip, k the step of the contraction. Point t = 32 j + 4 i + k. This module states, over the grid, WHEN each of the
  body's three branches is taken — the weight tile is rebuilt exactly at the points with i = 0, the accumulator is
  cleared exactly when k = 0 and copied to the output block exactly when k = 3 — and names the memrefs the body is
  called with and the two scratch buffers (the f32 accumulator and the four cached bf16 weight tiles).
-/
import proofs.«404393_j2190433321407_3_alg».proof.Proof.Gen.Kernel.Frame
import proofs.«404393_j2190433321407_3_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions -/

/-- The weight tile is rebuilt: the row-strip coordinate is 0. -/
abbrev cI (i : grid0.Coords) : Prop := k0_cond1 i = 1#1
/-- The accumulator is cleared: the contraction step is 0. -/
abbrev cK0 (i : grid0.Coords) : Prop :=
  Scalar.cmpi .ne (Scalar.extui (Scalar.cmpi .eq (BitVec.ofNat 32 (i 2).val) 0#32)) 0#32 = 1#1
/-- The accumulator is copied out: the contraction step is the last, 3. -/
abbrev cK3 (i : grid0.Coords) : Prop := k0_cond3 i = 1#1

theorem hcI : ∀ t : Fin cfg0.N, cI (grid0.coords t) ↔ (t.val / 4) % 8 = 0 :=
  (by decide +kernel : ∀ t : Fin grid0.N, cI (grid0.coords t) ↔ (t.val / 4) % 8 = 0)
theorem hcK0 : ∀ t : Fin cfg0.N, cK0 (grid0.coords t) ↔ t.val % 4 = 0 :=
  (by decide +kernel : ∀ t : Fin grid0.N, cK0 (grid0.coords t) ↔ t.val % 4 = 0)
theorem hcK3 : ∀ t : Fin cfg0.N, cK3 (grid0.coords t) ↔ t.val % 4 = 3 :=
  (by decide +kernel : ∀ t : Fin grid0.N, cK3 (grid0.coords t) ↔ t.val % 4 = 3)

/-- The contraction step of point t, as the slice offset the body computes from it. -/
theorem off1_eq : ∀ t : Fin cfg0.N, k0_off1 (grid0.coords t) = ![t.val % 4, 0, 0] :=
  (by decide +kernel : ∀ t : Fin grid0.N, k0_off1 (grid0.coords t) = ![t.val % 4, 0, 0])
theorem off2_eq : ∀ t : Fin cfg0.N, k0_off2 (grid0.coords t) = ![t.val % 4, 0, 0] :=
  (by decide +kernel : ∀ t : Fin grid0.N, k0_off2 (grid0.coords t) = ![t.val % 4, 0, 0])

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last contraction step the body stores nothing into the output block, and it is not written back. -/
theorem idle3 : ∀ t : Fin cfg0.N, ¬cK3 (grid0.coords t) → cfg0.idle 3 (grid0.coords t) = true := by decide +kernel
theorem noFlush3 : ∀ t : Fin cfg0.N, ¬cK3 (grid0.coords t) → (cfg0.win 3).flush t = false := by decide +kernel
theorem live3 : ∀ t : Fin cfg0.N, cK3 (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The accumulator scratch. -/
abbrev accM : Memref sig .tc .vmem S1024x512 .f32 := Memref.whole cc0_scratch0
/-- The scratch of four cached weight tiles. -/
abbrev wM : Memref sig .tc .vmem S4x1024x512 .bf16 := Memref.whole cc0_scratch1

/-- What the region lends the body besides the windows: both scratch buffers whole, at some contents, and the
    generator register. -/
theorem PhiA_eq (c : Dev nD) :
    (Pipeline.ΦA spec0 c : sProp 𝕄)
      = iprop(iprop((∃ d, owns (c : Thread nD τ) accM fullShare d) ∗ (∃ d, owns (c : Thread nD τ) wM fullShare d)) ∗ (∃ r, prngReg c r)) := by
  unfold Pipeline.ΦA; rw [scopedRest0_eq]; simp only [accM, wM, owns_whole]; try rfl

end Cert.Kernel.Body

end
-- ==== Proof.K.Tiles.lean ====
/-
  The tile cache holds four weight tiles of 1024 × 512, stacked along a leading axis. A store of one tile through
  the unit-stride box of one tile's extents at offsets `off` replaces what lies inside the box and nothing else;
  a load through such a box reads the tile back when the offsets are the store's, and reads what was there before
  when the two boxes lie apart along some axis.
-/
import proofs.«404393_j2190433321407_3_alg».proof.Kernel
import Idealize.ShloMosaic.Lib.WritesUnit
import Idealize.ShloMosaic.Lib.Pipeline.FrameBody

namespace Cert.Kernel.Body

open Idealize.ShloMosaic Cert.Kernel

variable {Val : EltTy → Type}

/-- The tile `w` laid over the stack `W` at the box of offsets `off`: inside the box the tile, read at the index
    less the offsets; outside it `W`. -/
def putTile (W : S4x1024x512.Idx → Val .bf16) (off : Fin 3 → ℕ) (w : S1x1024x512.Idx → Val .bf16) :
    S4x1024x512.Idx → Val .bf16 :=
  fun y => if h : ∀ a, off a ≤ (y a).val ∧ (y a).val < off a + S1x1024x512.size a then
      w (Rect.unitLocal (s := S4x1024x512) (off := off) (size := S1x1024x512.size) y h) else W y

/-- One store of a tile, read back through any view of the stack, is `putTile` of what the view read before. -/
theorem read_writes_putTile {sig : RefSig} {κ : Kind} {sp : Space} (v : View sig κ sp S4x1024x512 .bf16)
    (f : v.ty.Contents Val) (off : Fin 3 → ℕ) (inb : ∀ a, off a + S1x1024x512.size a ≤ S4x1024x512.size a)
    (w : S1x1024x512.Idx → Val .bf16) :
    v.read Val (v.writes Val f [(⟨Rect.unit off S1x1024x512.size inb, w⟩ : View.Piece Val S4x1024x512 .bf16)])
      = putTile (v.read Val f) off w := by
  funext y
  rw [View.read_writes_cons_unit v f inb w [] y rfl]
  rfl

/-- The index a box of unit stride gives position `x`: the offsets plus `x`. -/
theorem unit_idx_val (off : Fin 3 → ℕ) (inb : ∀ a, off a + S1x1024x512.size a ≤ S4x1024x512.size a)
    (x : S1x1024x512.Idx) (a : Fin 3) :
    (((Rect.unit (s := S4x1024x512) off S1x1024x512.size inb).idx x) a).val = off a + (x a).val := by
  show off a + 1 * (x a).val = _
  rw [Nat.one_mul]

/-- A load through the box just stored reads the tile. -/
theorem ld_putTile_same (W : S4x1024x512.Idx → Val .bf16) (off : Fin 3 → ℕ) (w : S1x1024x512.Idx → Val .bf16)
    (inb : ∀ a, off a + S1x1024x512.size a ≤ S4x1024x512.size a) :
    View.ld (putTile W off w) (Rect.unit (s := S4x1024x512) off S1x1024x512.size inb) = w := by
  funext x
  have h : ∀ a, off a ≤ (((Rect.unit (s := S4x1024x512) off S1x1024x512.size inb).idx x) a).val
      ∧ (((Rect.unit (s := S4x1024x512) off S1x1024x512.size inb).idx x) a).val < off a + S1x1024x512.size a := fun a => by
    rw [unit_idx_val off inb x a]
    exact ⟨Nat.le_add_right _ _, Nat.add_lt_add_left (x a).isLt _⟩
  show putTile W off w _ = w x
  unfold putTile
  rw [dif_pos h]
  congr 1
  funext a
  apply Fin.ext
  rw [Rect.unitLocal_val, unit_idx_val off inb x a]
  omega

/-- A load through a box that lies apart from the stored one along axis `a₀` reads what was there before. -/
theorem ld_putTile_apart (W : S4x1024x512.Idx → Val .bf16) (off off' : Fin 3 → ℕ) (w : S1x1024x512.Idx → Val .bf16)
    (inb' : ∀ a, off' a + S1x1024x512.size a ≤ S4x1024x512.size a) (a₀ : Fin 3)
    (hne : off' a₀ + S1x1024x512.size a₀ ≤ off a₀ ∨ off a₀ + S1x1024x512.size a₀ ≤ off' a₀) :
    View.ld (putTile W off w) (Rect.unit (s := S4x1024x512) off' S1x1024x512.size inb')
      = View.ld W (Rect.unit (s := S4x1024x512) off' S1x1024x512.size inb') := by
  funext x
  show putTile W off w _ = W _
  unfold putTile
  rw [dif_neg]
  intro h
  have h0 := h a₀
  rw [unit_idx_val off' inb' x a₀] at h0
  have := (x a₀).isLt
  omega

/-- The box's offsets may be given by any equal expression. -/
theorem ld_unit_congr (X : S4x1024x512.Idx → Val .bf16) {off off' : Fin 3 → ℕ} (e : off = off')
    (inb : ∀ a, off a + S1x1024x512.size a ≤ S4x1024x512.size a)
    (inb' : ∀ a, off' a + S1x1024x512.size a ≤ S4x1024x512.size a) :
    View.ld X (Rect.unit (s := S4x1024x512) off S1x1024x512.size inb)
      = View.ld X (Rect.unit (s := S4x1024x512) off' S1x1024x512.size inb') := by
  subst e; rfl

end Cert.Kernel.Body
-- ==== Proof.K.State.lean ====
/-
  What the two scratch buffers hold from point to point. Point t = 32 j + 4 i + k multiplies block (i, k) of the
  activations by the weight tile of strip j and step k. That tile depends on j and k only: it is built from block
  (k, j) of the packed weights and of the scales, which the points (j, i, k) share for every i; it is stored in
  slot k of the tile cache at i = 0 and read from there at i > 0. The accumulator is cleared at k = 0, so after
  every point it is a function of the arguments alone; the cache's slots are so once they have been built, and
  until then hold whatever the region found there. So the invariant names no contents: it says which slots are
  built, what each holds, and what the accumulator holds when a step has been taken.
-/
import proofs.«404393_j2190433321407_3_alg».proof.Proof.K.Setup
import proofs.«404393_j2190433321407_3_alg».proof.Proof.K.Tiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The blocks at a point -/

/-- Block (i, k) of the activations. -/
abbrev aBlk (c : Dev nD) (t : Fin cfg0.N) : Vec F S1024x1024 .bf16 := iblk m c 0 t
/-- Block (k, j) of the packed weights. -/
abbrev bBlk (c : Dev nD) (t : Fin cfg0.N) : Vec F S128x512 .i32 := iblk m c 1 t
/-- Block (k, j) of the scales. -/
abbrev sBlk (c : Dev nD) (t : Fin cfg0.N) : Vec F S8x512 .f32 := iblk m c 2 t

/-- The weight tile of the point's strip and step. -/
def wT (c : Dev nD) (t : Fin cfg0.N) : Vec F S1x1024x512 .bf16 := k0_pay1 (bBlk m c t) (sBlk m c t)

/-- Where the packed-weight and scale windows sit at a point: block row k, block column j. -/
theorem idx1 : ∀ t : Fin cfg0.N, win0_1.index t (0 : Fin 2) = t.val % 4 ∧ win0_1.index t (1 : Fin 2) = t.val / 32 :=
  (by decide +kernel : ∀ t : Fin grid0.N, win0_1.index t (0 : Fin 2) = t.val % 4 ∧ win0_1.index t (1 : Fin 2) = t.val / 32)
theorem idx2 : ∀ t : Fin cfg0.N, win0_2.index t (0 : Fin 2) = t.val % 4 ∧ win0_2.index t (1 : Fin 2) = t.val / 32 :=
  (by decide +kernel : ∀ t : Fin grid0.N, win0_2.index t (0 : Fin 2) = t.val % 4 ∧ win0_2.index t (1 : Fin 2) = t.val / 32)

/-- Two points of one strip and one step see the same block of packed weights, -/
theorem bBlk_eq (c : Dev nD) (t t' : Fin cfg0.N) (hj : t.val / 32 = t'.val / 32) (hk : t.val % 4 = t'.val % 4) :
    bBlk m c t = bBlk m c t' := by
  funext y
  show V m c main_arg1 (((cfg0.win 1).blk t).view.emb y) = V m c main_arg1 (((cfg0.win 1).blk t').view.emb y)
  congr 1
  funext a
  apply Fin.ext
  show win0_1.index t a * S128x512.size a + 1 * (y a).val = win0_1.index t' a * S128x512.size a + 1 * (y a).val
  have h := idx1 t; have h' := idx1 t'
  match a with
  | ⟨0, _⟩ => rw [show win0_1.index t (⟨0, by decide⟩ : Fin 2) = _ from h.1, show win0_1.index t' (⟨0, by decide⟩ : Fin 2) = _ from h'.1, hk]
  | ⟨1, _⟩ => rw [show win0_1.index t (⟨1, by decide⟩ : Fin 2) = _ from h.2, show win0_1.index t' (⟨1, by decide⟩ : Fin 2) = _ from h'.2, hj]

/-- and of scales, -/
theorem sBlk_eq (c : Dev nD) (t t' : Fin cfg0.N) (hj : t.val / 32 = t'.val / 32) (hk : t.val % 4 = t'.val % 4) :
    sBlk m c t = sBlk m c t' := by
  funext y
  show V m c main_arg2 (((cfg0.win 2).blk t).view.emb y) = V m c main_arg2 (((cfg0.win 2).blk t').view.emb y)
  congr 1
  funext a
  apply Fin.ext
  show win0_2.index t a * S8x512.size a + 1 * (y a).val = win0_2.index t' a * S8x512.size a + 1 * (y a).val
  have h := idx2 t; have h' := idx2 t'
  match a with
  | ⟨0, _⟩ => rw [show win0_2.index t (⟨0, by decide⟩ : Fin 2) = _ from h.1, show win0_2.index t' (⟨0, by decide⟩ : Fin 2) = _ from h'.1, hk]
  | ⟨1, _⟩ => rw [show win0_2.index t (⟨1, by decide⟩ : Fin 2) = _ from h.2, show win0_2.index t' (⟨1, by decide⟩ : Fin 2) = _ from h'.2, hj]

/-- hence the same weight tile. -/
theorem wT_eq (c : Dev nD) (t t' : Fin cfg0.N) (hj : t.val / 32 = t'.val / 32) (hk : t.val % 4 = t'.val % 4) :
    wT m c t = wT m c t' := by
  unfold wT; rw [bBlk_eq m c t t' hj hk, sBlk_eq m c t t' hj hk]

/-! ## The accumulator after each point -/

/-- The accumulator after the body at point `n`: one accumulation step over the point's activation block and weight
    tile, from zero at step 0 and from what the point before left otherwise. -/
def accAfter (c : Dev nD) : (n : ℕ) → n < cfg0.N → Vec F S1024x512 .f32
  | 0, h => k0_pay3 (aBlk m c ⟨0, h⟩) (wT m c ⟨0, h⟩) (k0_pay2 (F := F))
  | n + 1, h => k0_pay3 (aBlk m c ⟨n + 1, h⟩) (wT m c ⟨n + 1, h⟩)
      (if (n + 1) % 4 = 0 then (k0_pay2 (F := F)) else accAfter c n (Nat.lt_of_succ_lt h))

theorem accAfter_reset (c : Dev nD) (t : Fin cfg0.N) (h : t.val % 4 = 0) :
    accAfter m c t.val t.isLt = k0_pay3 (aBlk m c t) (wT m c t) (k0_pay2 (F := F)) := by
  obtain ⟨n, hn⟩ := t
  cases n with
  | zero => rfl
  | succ n => show k0_pay3 _ _ (if (n + 1) % 4 = 0 then _ else _) = _; rw [if_pos h]

theorem accAfter_step (c : Dev nD) (t : Fin cfg0.N) (h : t.val % 4 ≠ 0) :
    accAfter m c t.val t.isLt
      = k0_pay3 (aBlk m c t) (wT m c t) (accAfter m c (t.val - 1) (Nat.lt_of_le_of_lt (Nat.sub_le _ _) t.isLt)) := by
  obtain ⟨n, hn⟩ := t
  cases n with
  | zero => exact absurd (Nat.zero_mod _) h
  | succ n => show k0_pay3 _ _ (if (n + 1) % 4 = 0 then _ else _) = _; rw [if_neg h]; rfl

/-! ## The invariant -/

/-- Slot `k` of the cache is inside it. -/
theorem slot_inb (k : ℕ) (hk : k < 4) : ∀ a, (![k, 0, 0] : Fin 3 → ℕ) a + S1x1024x512.size a ≤ S4x1024x512.size a := by
  intro a
  match a with
  | ⟨0, _⟩ => show k + 1 ≤ 4; omega
  | ⟨1, _⟩ => show 0 + 1024 ≤ 1024; omega
  | ⟨2, _⟩ => show 0 + 512 ≤ 512; omega

/-- What slot `k` of the cache holds. -/
def slot (W : Vec F S4x1024x512 .bf16) (k : ℕ) (hk : k < 4) : Vec F S1x1024x512 .bf16 :=
  View.ld W (Rect.unit (s := S4x1024x512) ![k, 0, 0] S1x1024x512.size (slot_inb k hk))

theorem strip_point_lt (n : ℕ) (hn : n ≤ cfg0.N) (k : ℕ) (hk : k < 4) (hb : (n / 4) % 8 ≠ 0 ∨ k < n % 4) :
    32 * (n / 32) + k < cfg0.N := by
  have hN : cfg0.N = 256 := N_0
  omega

/-- Before point `n`: slot `k` has been built in this strip if the row strip is past 0 or the step is past `k`, and
    then holds the tile of the strip's step `k`; and past step 0 the accumulator holds what the point before left. -/
structure Inv (c : Dev nD) (n : ℕ) (hn : n ≤ cfg0.N) (acc : Vec F S1024x512 .f32) (W : Vec F S4x1024x512 .bf16) : Prop where
  tiles : ∀ (k : ℕ) (hk : k < 4) (hb : (n / 4) % 8 ≠ 0 ∨ k < n % 4),
    slot W k hk = wT m c ⟨32 * (n / 32) + k, strip_point_lt n hn k hk hb⟩
  acc : ∀ (h : n % 4 ≠ 0), acc = accAfter m c (n - 1) (by have hN : cfg0.N = 256 := N_0; omega)

/-- Nothing is claimed before the first point. -/
theorem inv_zero (c : Dev nD) (acc : Vec F S1024x512 .f32) (W : Vec F S4x1024x512 .bf16) : Inv m c 0 (Nat.zero_le _) acc W :=
  ⟨fun k hk hb => by omega, fun h => absurd rfl h⟩

end Cert.Kernel.Body

end
-- ==== Proof.K.Step.lean ====
/-
  One point carries the invariant to the next. At a point of row strip 0 the body lays the point's tile into slot
  k, which builds that slot for the rest of the strip; at a later row strip the cache is unchanged and the slot
  read is one the invariant already names. Either way the accumulator becomes the point's own value, and the
  tile multiplied is the point's tile.
-/
import proofs.«404393_j2190433321407_3_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Past row strip 0 the slot the body reads holds the point's tile. -/
theorem slot_of_inv (c : Dev nD) (t : Fin cfg0.N) (hI0 : (t.val / 4) % 8 ≠ 0) {acc : Vec F S1024x512 .f32} {W : Vec F S4x1024x512 .bf16}
    (hI : Inv m c t.val (Nat.le_of_lt t.isLt) acc W) :
    View.ld W (Rect.unit (s := S4x1024x512) (k0_off2 (grid0.coords t)) S1x1024x512.size (Facts₀.k0_off2_inb (grid0.coords t)))
      = wT m c t := by
  have hk : t.val % 4 < 4 := Nat.mod_lt _ (by decide)
  rw [ld_unit_congr W (off2_eq t) _ (slot_inb _ hk)]
  show slot W (t.val % 4) hk = _
  rw [hI.tiles (t.val % 4) hk (Or.inl hI0)]
  exact wT_eq m c _ t (by show (32 * (t.val / 32) + t.val % 4) / 32 = t.val / 32; omega)
    (by show (32 * (t.val / 32) + t.val % 4) % 4 = t.val % 4; omega)

/-- The accumulation step from zero is the point's value at step 0, -/
theorem acc_next_reset (c : Dev nD) (t : Fin cfg0.N) (h0 : t.val % 4 = 0) :
    k0_pay3 (aBlk m c t) (wT m c t) (k0_pay2 (F := F)) = accAfter m c t.val t.isLt :=
  (accAfter_reset m c t h0).symm

/-- and from what the invariant names, past step 0. -/
theorem acc_next_step (c : Dev nD) (t : Fin cfg0.N) (h0 : t.val % 4 ≠ 0) {acc : Vec F S1024x512 .f32} {W : Vec F S4x1024x512 .bf16}
    (hI : Inv m c t.val (Nat.le_of_lt t.isLt) acc W) :
    k0_pay3 (aBlk m c t) (wT m c t) acc = accAfter m c t.val t.isLt := by
  rw [accAfter_step m c t h0, hI.acc h0]

/-- At row strip 0: the tile laid into slot k. -/
theorem inv_next_put (c : Dev nD) (t : Fin cfg0.N) (hI0 : (t.val / 4) % 8 = 0) {acc : Vec F S1024x512 .f32} {W : Vec F S4x1024x512 .bf16}
    (hI : Inv m c t.val (Nat.le_of_lt t.isLt) acc W) :
    Inv m c (t.val + 1) t.isLt (accAfter m c t.val t.isLt) (putTile W (k0_off1 (grid0.coords t)) (wT m c t)) where
  tiles := fun k hk hb => by
    have hN : t.val < 256 := lt_of_lt_of_eq t.isLt (show cfg0.N = 256 from N_0)
    rw [off1_eq t]
    by_cases hkk : k = t.val % 4
    · subst hkk
      show View.ld (putTile W ![t.val % 4, 0, 0] (wT m c t)) (Rect.unit (s := S4x1024x512) ![t.val % 4, 0, 0] S1x1024x512.size _) = _
      rw [ld_putTile_same]
      exact wT_eq m c t _ (by show t.val / 32 = (32 * ((t.val + 1) / 32) + t.val % 4) / 32; omega)
        (by show t.val % 4 = (32 * ((t.val + 1) / 32) + t.val % 4) % 4; omega)
    · show View.ld (putTile W ![t.val % 4, 0, 0] (wT m c t)) (Rect.unit (s := S4x1024x512) ![k, 0, 0] S1x1024x512.size (slot_inb k hk)) = _
      rw [ld_putTile_apart W _ _ _ _ (0 : Fin 3) (by show k + 1 ≤ t.val % 4 ∨ t.val % 4 + 1 ≤ k; omega)]
      have hlt : (t.val / 4) % 8 ≠ 0 ∨ k < t.val % 4 := by omega
      exact (hI.tiles k hk hlt).trans (wT_eq m c _ _ (by show (32 * (t.val / 32) + k) / 32 = (32 * ((t.val + 1) / 32) + k) / 32; omega)
        (by show (32 * (t.val / 32) + k) % 4 = (32 * ((t.val + 1) / 32) + k) % 4; omega))
  acc := fun _ => rfl

/-- Past row strip 0: the cache unchanged. -/
theorem inv_next_keep (c : Dev nD) (t : Fin cfg0.N) (hI0 : (t.val / 4) % 8 ≠ 0) {acc : Vec F S1024x512 .f32} {W : Vec F S4x1024x512 .bf16}
    (hI : Inv m c t.val (Nat.le_of_lt t.isLt) acc W) :
    Inv m c (t.val + 1) t.isLt (accAfter m c t.val t.isLt) W where
  tiles := fun k hk hb => by
    have hN : t.val < 256 := lt_of_lt_of_eq t.isLt (show cfg0.N = 256 from N_0)
    by_cases hs : (t.val + 1) / 32 = t.val / 32
    · exact (hI.tiles k hk (Or.inl hI0)).trans (wT_eq m c _ _ (by show (32 * (t.val / 32) + k) / 32 = (32 * ((t.val + 1) / 32) + k) / 32; omega)
        (by show (32 * (t.val / 32) + k) % 4 = (32 * ((t.val + 1) / 32) + k) % 4; omega))
    · exfalso; omega
  acc := fun _ => rfl

end Cert.Kernel.Body

end
-- ==== Proof.K.RunA.lean ====
/-
  One call of the kernel body at a point where the weight tile is rebuilt (row strip 0) and the accumulator is
  cleared (contraction step 0), and nothing is copied out. From whole buffers at any contents the body runs to its
  end; it leaves the accumulator at one accumulation step from zero over the tile just built, the tile cache with
  that tile laid over what it held, and everything else as it was.
-/
import proofs.«404393_j2190433321407_3_alg».proof.Proof.K.Setup
import proofs.«404393_j2190433321407_3_alg».proof.Proof.K.Tiles
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator and in the tile cache, with the run. -/
noncomputable def runA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LW : List (View.Piece (Elt F) S4x1024x512 .bf16) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexact HW

theorem zero2 : (![0, 0] : Fin 2 → ℕ) = fun _ => 0 := by
  funext a; fin_cases a <;> rfl

/-- The accumulator after such a call: one step from zero over the tile just built. -/
theorem runA_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runA c i arg3 harg3 arg4 harg4 arg5 harg5 arg6 harg6 arg7 harg7 arg8 harg8 h1 h2 h3 a b s acc W).1)
      = k0_pay3 a (k0_pay1 b s) (k0_pay2 (F := F)) := by
  unfold runA; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2, View.readCov_cons_toLoadRect]
  simp only [View.readAt_eq_ld, harg3.read_unread, harg4.read_unread, harg5.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runA_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runA c i arg3 harg3 arg4 harg4 arg5 harg5 arg6 harg6 arg7 harg7 arg8 harg8 h1 h2 h3 a b s acc W).2.1)
      = putTile W (k0_off1 i) (k0_pay1 b s) := by
  unfold runA; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The body at such a point, its result stated outright. -/
theorem bodyA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (k0_pay1 b s) (k0_pay2 (F := F)))
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runA c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runA_acc c i arg3 harg3 arg4 harg4 arg5 harg5 arg6 harg6 arg7 harg7 arg8 harg8 h1 h2 h3 a b s acc W
  unfold owns; iexists _; isplitr
  swap; · iexact HW
  ipureintro; exact runA_W c i arg3 harg3 arg4 harg4 arg5 harg5 arg6 harg6 arg7 harg7 arg8 harg8 h1 h2 h3 a b s acc W

end Cert.Kernel.Body

end
-- ==== Proof.K.RunB.lean ====
/-
  One call of the kernel body at a point where the weight tile is rebuilt (row strip 0), a contraction step past the first and before the last. From whole buffers at any contents the body runs to its
  end, and what it leaves in each buffer is stated outright.
-/
import proofs.«404393_j2190433321407_3_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator and in the tile cache, with the run. -/
noncomputable def runB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LW : List (View.Piece (Elt F) S4x1024x512 .bf16) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexact HW

/-- The accumulator after such a call: one step on from what it held, over the tile just built. -/
theorem runB_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runB c i arg3 harg3 arg4 harg4 arg5 harg5 arg6 harg6 arg7 harg7 arg8 harg8 h1 h2 h3 a b s acc W).1)
      = k0_pay3 a (k0_pay1 b s) acc := by
  unfold runB; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runB_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runB c i arg3 harg3 arg4 harg4 arg5 harg5 arg6 harg6 arg7 harg7 arg8 harg8 h1 h2 h3 a b s acc W).2.1)
      = putTile W (k0_off1 i) (k0_pay1 b s) := by
  unfold runB; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The body at such a point, its result stated outright. -/
theorem bodyB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (k0_pay1 b s) acc)
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runB c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runB_acc c i arg3 harg3 arg4 harg4 arg5 harg5 arg6 harg6 arg7 harg7 arg8 harg8 h1 h2 h3 a b s acc W
  unfold owns; iexists _; isplitr
  swap; · iexact HW
  ipureintro; exact runB_W c i arg3 harg3 arg4 harg4 arg5 harg5 arg6 harg6 arg7 harg7 arg8 harg8 h1 h2 h3 a b s acc W

end Cert.Kernel.Body

end
-- ==== Proof.K.RunC.lean ====
/-
  One call of the kernel body at a point where the weight tile is rebuilt (row strip 0) at the last contraction step, where the accumulator is copied out. From whole buffers at any contents the body runs to its
  end, and what it leaves in each buffer is stated outright.
-/
import proofs.«404393_j2190433321407_3_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator, in the tile cache and in the output block, with the run. -/
noncomputable def runC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)) (LW : List (View.Piece (Elt F) S4x1024x512 .bf16)), { LO : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ (arg6.view.loc (c : Thread nD τ) ↦[arg6.view.set]{fullShare} arg6.view.writes (Elt F) (harg6.unread o) LO)
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexact H3
    isplitl [HA]
    · iexact HA
    iexact HW

/-- The accumulator after such a call: one step on from what it held, over the tile just built. -/
theorem runC_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runC c i arg3 harg3 arg4 harg4 arg5 harg5 arg6 harg6 arg7 harg7 arg8 harg8 h1 h2 h3 a b s acc W).1)
      = k0_pay3 a (k0_pay1 b s) acc := by
  unfold runC; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runC_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runC c i arg3 harg3 arg4 harg4 arg5 harg5 arg6 harg6 arg7 harg7 arg8 harg8 h1 h2 h3 a b s acc W).2.1)
      = putTile W (k0_off1 i) (k0_pay1 b s) := by
  unfold runC; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The output block after such a call: the accumulator as the call left it. -/
theorem runC_out (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) :
    arg6.view.read (Elt F) (arg6.view.writes (Elt F) (harg6.unread o) (runC c i arg3 harg3 arg4 harg4 arg5 harg5 arg6 harg6 arg7 harg7 arg8 harg8 h1 h2 h3 a b s acc W).2.2.1)
      = k0_pay3 a (k0_pay1 b s) acc := by
  unfold runC; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2, View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The body at such a point, its result stated outright. -/
theorem bodyC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare (k0_pay3 a (k0_pay1 b s) acc)
            ∗ owns (c : Thread nD τ) arg7 fullShare (k0_pay3 a (k0_pay1 b s) acc)
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runC c i arg3 harg3 arg4 harg4 arg5 harg5 arg6 harg6 arg7 harg7 arg8 harg8 h1 h2 h3 a b s acc W).2.2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]
  · unfold owns; iexists _; isplitr
    swap; · iexact H3
    ipureintro; exact runC_out c i arg3 harg3 arg4 harg4 arg5 harg5 arg6 harg6 arg7 harg7 arg8 harg8 h1 h2 h3 a b s acc W o
  isplitl [HA]
  · unfold owns; iexists _; isplitr
    swap; · iexact HA
    ipureintro; exact runC_acc c i arg3 harg3 arg4 harg4 arg5 harg5 arg6 harg6 arg7 harg7 arg8 harg8 h1 h2 h3 a b s acc W
  unfold owns; iexists _; isplitr
  swap; · iexact HW
  ipureintro; exact runC_W c i arg3 harg3 arg4 harg4 arg5 harg5 arg6 harg6 arg7 harg7 arg8 harg8 h1 h2 h3 a b s acc W

end Cert.Kernel.Body

end
-- ==== Proof.K.RunD.lean ====
/-
  One call of the kernel body at a point where the weight tile is read from the cache (row strip past 0) and the accumulator is cleared (step 0). From whole buffers at any contents the body runs to its
  end, and what it leaves in each buffer is stated outright.
-/
import proofs.«404393_j2190433321407_3_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator, with the run. -/
noncomputable def runD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) :
    { LA : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexists _; isplitr; · ipureintro; exact harg8.read_unread _
    iexact HW

/-- The accumulator after such a call: one step from zero over the cached tile of this contraction step. -/
theorem runD_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runD c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) (k0_pay2 (F := F)) := by
  unfold runD; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2]
  simp only [View.readAt_eq_ld, harg3.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (View.ld W (Rect.unit (s := S4x1024x512) (k0_off2 i) S1x1024x512.size (Facts₀.k0_off2_inb i))) (k0_pay2 (F := F)))
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runD c i arg3 harg3 arg4 harg4 arg5 harg5 arg6 harg6 arg7 harg7 arg8 harg8 h1 h2 h3 a b s acc W).2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runD_acc c i arg3 harg3 arg4 harg4 arg5 harg5 arg6 harg6 arg7 harg7 arg8 harg8 h1 h2 h3 a b s acc W
  iexact HW

end Cert.Kernel.Body

end
-- ==== Proof.K.RunE.lean ====
/-
  One call of the kernel body at a point where the weight tile is read from the cache (row strip past 0), a contraction step past the first and before the last. From whole buffers at any contents the body runs to its
  end, and what it leaves in each buffer is stated outright.
-/
import proofs.«404393_j2190433321407_3_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator, with the run. -/
noncomputable def runE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    { LA : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexists _; isplitr; · ipureintro; exact harg8.read_unread _
    iexact HW

/-- The accumulator after such a call: one step on from what it held, over the cached tile of this contraction step. -/
theorem runE_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runE c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) acc := by
  unfold runE; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (View.ld W (Rect.unit (s := S4x1024x512) (k0_off2 i) S1x1024x512.size (Facts₀.k0_off2_inb i))) acc)
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runE c i arg3 harg3 arg4 harg4 arg5 harg5 arg6 harg6 arg7 harg7 arg8 harg8 h1 h2 h3 a b s acc W).2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runE_acc c i arg3 harg3 arg4 harg4 arg5 harg5 arg6 harg6 arg7 harg7 arg8 harg8 h1 h2 h3 a b s acc W
  iexact HW

end Cert.Kernel.Body

end
-- ==== Proof.K.RunG.lean ====
/-
  One call of the kernel body at a point where the weight tile is read from the cache (row strip past 0) at the last contraction step, where the accumulator is copied out. From whole buffers at any contents the body runs to its
  end, and what it leaves in each buffer is stated outright.
-/
import proofs.«404393_j2190433321407_3_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the accumulator and in the output block, with the run. -/
noncomputable def runG (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LO : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ (arg6.view.loc (c : Thread nD τ) ↦[arg6.view.set]{fullShare} arg6.view.writes (Elt F) (harg6.unread o) LO)
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexact H3
    isplitl [HA]
    · iexact HA
    iexists _; isplitr; · ipureintro; exact harg8.read_unread _
    iexact HW

/-- The accumulator after such a call: one step on from what it held, over the cached tile of this contraction step. -/
theorem runG_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runG c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) acc := by
  unfold runG; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The output block after such a call: the accumulator as the call left it. -/
theorem runG_out (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) :
    arg6.view.read (Elt F) (arg6.view.writes (Elt F) (harg6.unread o) (runG c i arg3 harg3 arg4 harg4 arg5 harg5 arg6 harg6 arg7 harg7 arg8 harg8 h1 h2 h3 a b s acc W).2.1)
      = k0_pay3 a (View.ld W (Rect.unit (s := S4x1024x512) (k0_off2 i) S1x1024x512.size (Facts₀.k0_off2_inb i))) acc := by
  unfold runG; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyG (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare (k0_pay3 a (View.ld W (Rect.unit (s := S4x1024x512) (k0_off2 i) S1x1024x512.size (Facts₀.k0_off2_inb i))) acc)
            ∗ owns (c : Thread nD τ) arg7 fullShare (k0_pay3 a (View.ld W (Rect.unit (s := S4x1024x512) (k0_off2 i) S1x1024x512.size (Facts₀.k0_off2_inb i))) acc)
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runG c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]
  · unfold owns; iexists _; isplitr
    swap; · iexact H3
    ipureintro; exact runG_out c i arg3 harg3 arg4 harg4 arg5 harg5 arg6 harg6 arg7 harg7 arg8 harg8 h1 h2 h3 a b s acc W o
  isplitl [HA]
  · unfold owns; iexists _; isplitr
    swap; · iexact HA
    ipureintro; exact runG_acc c i arg3 harg3 arg4 harg4 arg5 harg5 arg6 harg6 arg7 harg7 arg8 harg8 h1 h2 h3 a b s acc W
  iexact HW

end Cert.Kernel.Body

end
-- ==== Proof.K.Body.lean ====
/-
  The frame of the kernel's one region. The region's invariant, point by point, is the two scratch buffers at some
  contents that satisfy the invariant of the point; the body at each point is one of six cases, decided by the
  point's coordinates; each case hands the buffers back at contents that satisfy the next point's invariant, the
  inputs' blocks untouched, and the output block either untouched (not written back there) or at the accumulated
  value (at the last contraction step, where it is written back). From the obligation at every point the
  pipeline library's launch theorem gives the run of the whole program: it terminates, faults nowhere, leaves its
  argument arrays unchanged and the result array at the blocks written back.
-/
import proofs.«404393_j2190433321407_3_alg».proof.Proof.K.Step
import proofs.«404393_j2190433321407_3_alg».proof.Proof.K.RunA
import proofs.«404393_j2190433321407_3_alg».proof.Proof.K.RunB
import proofs.«404393_j2190433321407_3_alg».proof.Proof.K.RunC
import proofs.«404393_j2190433321407_3_alg».proof.Proof.K.RunD
import proofs.«404393_j2190433321407_3_alg».proof.Proof.K.RunE
import proofs.«404393_j2190433321407_3_alg».proof.Proof.K.RunG

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and the proof data -/

/-- Before point `n`: the accumulator and the tile cache whole, at contents the point's invariant admits, and the
    generator register at some state. -/
def Phi (c : Dev nD) (n : ℕ) (hn : n ≤ cfg0.N) : sProp 𝕄 :=
  iprop(∃ acc, ∃ W, ⌜Inv m c n hn acc W⌝ ∗ owns (c : Thread nD τ) accM fullShare acc ∗ owns (c : Thread nD τ) wM fullShare W
    ∗ (∃ r, prngReg c r))

/-- The proof data: the arrays as the region finds them; after the body each input's buffer at its block and the
    output's at the accumulator's value; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAfter m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem Phi_succ (c : Dev nD) (t : Fin cfg0.N) :
    (dats m 0 c).Φ t.succ = Phi m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAfter m c t.val t.isLt := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the coordinates decide the case; the invariant names the tile read from the cache and
    the accumulator carried over; the case's result satisfies the next point's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [Phi_succ, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases hI0 : (t.val / 4) % 8 = 0
  · by_cases h0 : t.val % 4 = 0
    · by_cases h3 : t.val % 4 = 3
      · exfalso; omega
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyA c (grid0.coords t) (ms0 t) (hs0 t) (ms1 t) (hs1 t) (ms2 t) (hs2 t) (ms3 t) (hs3 t) accM (Memref.isWhole_whole _) wM (Memref.isWhole_whole _)
        ((hcI t).mpr hI0) ((hcK0 t).mpr h0) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_reset m c t h0]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
    · by_cases h3 : t.val % 4 = 3
      rw [show (dats m 0 c).leavesExact 3 t = owns (c : Thread nD τ) (ms3 t) fullShare ((dats m 0 c).after 3 t) from by
        unfold Dat.leavesExact; rw [live3 t ((hcK3 t).mpr h3)], after3]
      unfold Phi
      iintro ⟨⟨%acc, %W, %hI, HA, HW, Hg⟩, Ho, ⟨%d0, H0⟩, ⟨%d1, H1⟩, ⟨%d2, H2⟩, ⟨%d3, H3⟩⟩
      iapply (bodyC c (grid0.coords t) (ms0 t) (hs0 t) (ms1 t) (hs1 t) (ms2 t) (hs2 t) (ms3 t) (hs3 t) accM (Memref.isWhole_whole _) wM (Memref.isWhole_whole _)
        ((hcI t).mpr hI0) (fun h => h0 ((hcK0 t).mp h)) ((hcK3 t).mpr h3) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_step m c t h0 hI]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexact H3
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyB c (grid0.coords t) (ms0 t) (hs0 t) (ms1 t) (hs1 t) (ms2 t) (hs2 t) (ms3 t) (hs3 t) accM (Memref.isWhole_whole _) wM (Memref.isWhole_whole _)
        ((hcI t).mpr hI0) (fun h => h0 ((hcK0 t).mp h)) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_step m c t h0 hI]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
  · by_cases h0 : t.val % 4 = 0
    · by_cases h3 : t.val % 4 = 3
      · exfalso; omega
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyD c (grid0.coords t) (ms0 t) (hs0 t) (ms1 t) (hs1 t) (ms2 t) (hs2 t) (ms3 t) (hs3 t) accM (Memref.isWhole_whole _) wM (Memref.isWhole_whole _)
        (fun h => hI0 ((hcI t).mp h)) ((hcK0 t).mpr h0) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_reset m c t h0]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
    · by_cases h3 : t.val % 4 = 3
      rw [show (dats m 0 c).leavesExact 3 t = owns (c : Thread nD τ) (ms3 t) fullShare ((dats m 0 c).after 3 t) from by
        unfold Dat.leavesExact; rw [live3 t ((hcK3 t).mpr h3)], after3]
      unfold Phi
      iintro ⟨⟨%acc, %W, %hI, HA, HW, Hg⟩, Ho, ⟨%d0, H0⟩, ⟨%d1, H1⟩, ⟨%d2, H2⟩, ⟨%d3, H3⟩⟩
      iapply (bodyG c (grid0.coords t) (ms0 t) (hs0 t) (ms1 t) (hs1 t) (ms2 t) (hs2 t) (ms3 t) (hs3 t) accM (Memref.isWhole_whole _) wM (Memref.isWhole_whole _)
        (fun h => hI0 ((hcI t).mp h)) (fun h => h0 ((hcK0 t).mp h)) ((hcK3 t).mpr h3) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_step m c t h0 hI]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexact H3
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyE c (grid0.coords t) (ms0 t) (hs0 t) (ms1 t) (hs1 t) (ms2 t) (hs2 t) (ms3 t) (hs3 t) accM (Memref.isWhole_whole _) wM (Memref.isWhole_whole _)
        (fun h => hI0 ((hcI t).mp h)) (fun h => h0 ((hcK0 t).mp h)) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_step m c t h0 hI]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed there. -/
theorem hin (c : Dev nD) : Pipeline.ΦA spec0 c ⊢ (dats m 0 c).Φ 0 := by
  rw [show (dats m 0 c).Φ 0 = Phi m c 0 (Nat.zero_le _) from rfl, PhiA_eq]
  unfold Phi
  iintro ⟨⟨⟨%acc, HA⟩, ⟨%W, HW⟩⟩, Hg⟩
  iexists acc, W
  isplitr
  · ipureintro; exact inv_zero m c acc W
  isplitl [HA]; · iexact HA
  isplitl [HW]; · iexact HW
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, PhiA_eq]
  unfold Phi
  iintro ⟨%acc, %W, -, HA, HW, Hg⟩
  isplitl [HA HW]
  · isplitl [HA]
    · iexists _; iexact HA
    iexists _; iexact HW
  iexact Hg

/-! ## The run and the frame -/

set_option backward.isDefEq.respectTransparency.types false in
/-- Every weakly fair execution of the program terminates, and every final state has each array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Setup.lean ====
/-
  The grid of the quantized matmul kernel is (j, i, k) = (8, 8, 4): j the column strip of the result, i its row
  strip, k the step of the contraction. Point t = 32 j + 4 i + k. This module states, over the grid, WHEN each of the
  body's three branches is taken — the weight tile is rebuilt exactly at the points with i = 0, the accumulator is
  cleared exactly when k = 0 and copied to the output block exactly when k = 3 — and names the memrefs the body is
  called with and the two scratch buffers (the f32 accumulator and the four cached bf16 weight tiles).
-/
import proofs.«404393_j2190433321407_3_alg».proof.Proof.Gen.KernelIdeal.Frame
import proofs.«404393_j2190433321407_3_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions -/

/-- The weight tile is rebuilt: the row-strip coordinate is 0. -/
abbrev cI (i : grid0.Coords) : Prop := k0_cond1 i = 1#1
/-- The accumulator is cleared: the contraction step is 0. -/
abbrev cK0 (i : grid0.Coords) : Prop :=
  Scalar.cmpi .ne (Scalar.extui (Scalar.cmpi .eq (BitVec.ofNat 32 (i 2).val) 0#32)) 0#32 = 1#1
/-- The accumulator is copied out: the contraction step is the last, 3. -/
abbrev cK3 (i : grid0.Coords) : Prop := k0_cond3 i = 1#1

theorem hcI : ∀ t : Fin cfg0.N, cI (grid0.coords t) ↔ (t.val / 4) % 8 = 0 :=
  (by decide +kernel : ∀ t : Fin grid0.N, cI (grid0.coords t) ↔ (t.val / 4) % 8 = 0)
theorem hcK0 : ∀ t : Fin cfg0.N, cK0 (grid0.coords t) ↔ t.val % 4 = 0 :=
  (by decide +kernel : ∀ t : Fin grid0.N, cK0 (grid0.coords t) ↔ t.val % 4 = 0)
theorem hcK3 : ∀ t : Fin cfg0.N, cK3 (grid0.coords t) ↔ t.val % 4 = 3 :=
  (by decide +kernel : ∀ t : Fin grid0.N, cK3 (grid0.coords t) ↔ t.val % 4 = 3)

/-- The contraction step of point t, as the slice offset the body computes from it. -/
theorem off1_eq : ∀ t : Fin cfg0.N, k0_off1 (grid0.coords t) = ![t.val % 4, 0, 0] :=
  (by decide +kernel : ∀ t : Fin grid0.N, k0_off1 (grid0.coords t) = ![t.val % 4, 0, 0])
theorem off2_eq : ∀ t : Fin cfg0.N, k0_off2 (grid0.coords t) = ![t.val % 4, 0, 0] :=
  (by decide +kernel : ∀ t : Fin grid0.N, k0_off2 (grid0.coords t) = ![t.val % 4, 0, 0])

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last contraction step the body stores nothing into the output block, and it is not written back. -/
theorem idle3 : ∀ t : Fin cfg0.N, ¬cK3 (grid0.coords t) → cfg0.idle 3 (grid0.coords t) = true := by decide +kernel
theorem noFlush3 : ∀ t : Fin cfg0.N, ¬cK3 (grid0.coords t) → (cfg0.win 3).flush t = false := by decide +kernel
theorem live3 : ∀ t : Fin cfg0.N, cK3 (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The accumulator scratch. -/
abbrev accM : Memref sig .tc .vmem S1024x512 .f32 := Memref.whole cc0_scratch0
/-- The scratch of four cached weight tiles. -/
abbrev wM : Memref sig .tc .vmem S4x1024x512 .bf16 := Memref.whole cc0_scratch1

/-- What the region lends the body besides the windows: both scratch buffers whole, at some contents, and the
    generator register. -/
theorem PhiA_eq (c : Dev nD) :
    (Pipeline.ΦA spec0 c : sProp 𝕄)
      = iprop(iprop((∃ d, owns (c : Thread nD τ) accM fullShare d) ∗ (∃ d, owns (c : Thread nD τ) wM fullShare d)) ∗ (∃ r, prngReg c r)) := by
  unfold Pipeline.ΦA; rw [scopedRest0_eq]; simp only [accM, wM, owns_whole]; try rfl

end Cert.KernelIdeal.Body

end
-- ==== Proof.KI.Tiles.lean ====
/-
  The tile cache holds four weight tiles of 1024 × 512, stacked along a leading axis. A store of one tile through
  the unit-stride box of one tile's extents at offsets `off` replaces what lies inside the box and nothing else;
  a load through such a box reads the tile back when the offsets are the store's, and reads what was there before
  when the two boxes lie apart along some axis.
-/
import proofs.«404393_j2190433321407_3_alg».proof.KernelIdeal
import Idealize.ShloMosaic.Lib.WritesUnit
import Idealize.ShloMosaic.Lib.Pipeline.FrameBody

namespace Cert.KernelIdeal.Body

open Idealize.ShloMosaic Cert.KernelIdeal

variable {Val : EltTy → Type}

/-- The tile `w` laid over the stack `W` at the box of offsets `off`: inside the box the tile, read at the index
    less the offsets; outside it `W`. -/
def putTile (W : S4x1024x512.Idx → Val .bf16) (off : Fin 3 → ℕ) (w : S1x1024x512.Idx → Val .bf16) :
    S4x1024x512.Idx → Val .bf16 :=
  fun y => if h : ∀ a, off a ≤ (y a).val ∧ (y a).val < off a + S1x1024x512.size a then
      w (Rect.unitLocal (s := S4x1024x512) (off := off) (size := S1x1024x512.size) y h) else W y

/-- One store of a tile, read back through any view of the stack, is `putTile` of what the view read before. -/
theorem read_writes_putTile {sig : RefSig} {κ : Kind} {sp : Space} (v : View sig κ sp S4x1024x512 .bf16)
    (f : v.ty.Contents Val) (off : Fin 3 → ℕ) (inb : ∀ a, off a + S1x1024x512.size a ≤ S4x1024x512.size a)
    (w : S1x1024x512.Idx → Val .bf16) :
    v.read Val (v.writes Val f [(⟨Rect.unit off S1x1024x512.size inb, w⟩ : View.Piece Val S4x1024x512 .bf16)])
      = putTile (v.read Val f) off w := by
  funext y
  rw [View.read_writes_cons_unit v f inb w [] y rfl]
  rfl

/-- The index a box of unit stride gives position `x`: the offsets plus `x`. -/
theorem unit_idx_val (off : Fin 3 → ℕ) (inb : ∀ a, off a + S1x1024x512.size a ≤ S4x1024x512.size a)
    (x : S1x1024x512.Idx) (a : Fin 3) :
    (((Rect.unit (s := S4x1024x512) off S1x1024x512.size inb).idx x) a).val = off a + (x a).val := by
  show off a + 1 * (x a).val = _
  rw [Nat.one_mul]

/-- A load through the box just stored reads the tile. -/
theorem ld_putTile_same (W : S4x1024x512.Idx → Val .bf16) (off : Fin 3 → ℕ) (w : S1x1024x512.Idx → Val .bf16)
    (inb : ∀ a, off a + S1x1024x512.size a ≤ S4x1024x512.size a) :
    View.ld (putTile W off w) (Rect.unit (s := S4x1024x512) off S1x1024x512.size inb) = w := by
  funext x
  have h : ∀ a, off a ≤ (((Rect.unit (s := S4x1024x512) off S1x1024x512.size inb).idx x) a).val
      ∧ (((Rect.unit (s := S4x1024x512) off S1x1024x512.size inb).idx x) a).val < off a + S1x1024x512.size a := fun a => by
    rw [unit_idx_val off inb x a]
    exact ⟨Nat.le_add_right _ _, Nat.add_lt_add_left (x a).isLt _⟩
  show putTile W off w _ = w x
  unfold putTile
  rw [dif_pos h]
  congr 1
  funext a
  apply Fin.ext
  rw [Rect.unitLocal_val, unit_idx_val off inb x a]
  omega

/-- A load through a box that lies apart from the stored one along axis `a₀` reads what was there before. -/
theorem ld_putTile_apart (W : S4x1024x512.Idx → Val .bf16) (off off' : Fin 3 → ℕ) (w : S1x1024x512.Idx → Val .bf16)
    (inb' : ∀ a, off' a + S1x1024x512.size a ≤ S4x1024x512.size a) (a₀ : Fin 3)
    (hne : off' a₀ + S1x1024x512.size a₀ ≤ off a₀ ∨ off a₀ + S1x1024x512.size a₀ ≤ off' a₀) :
    View.ld (putTile W off w) (Rect.unit (s := S4x1024x512) off' S1x1024x512.size inb')
      = View.ld W (Rect.unit (s := S4x1024x512) off' S1x1024x512.size inb') := by
  funext x
  show putTile W off w _ = W _
  unfold putTile
  rw [dif_neg]
  intro h
  have h0 := h a₀
  rw [unit_idx_val off' inb' x a₀] at h0
  have := (x a₀).isLt
  omega

/-- The box's offsets may be given by any equal expression. -/
theorem ld_unit_congr (X : S4x1024x512.Idx → Val .bf16) {off off' : Fin 3 → ℕ} (e : off = off')
    (inb : ∀ a, off a + S1x1024x512.size a ≤ S4x1024x512.size a)
    (inb' : ∀ a, off' a + S1x1024x512.size a ≤ S4x1024x512.size a) :
    View.ld X (Rect.unit (s := S4x1024x512) off S1x1024x512.size inb)
      = View.ld X (Rect.unit (s := S4x1024x512) off' S1x1024x512.size inb') := by
  subst e; rfl

end Cert.KernelIdeal.Body
-- ==== Proof.KI.State.lean ====
/-
  What the two scratch buffers hold from point to point. Point t = 32 j + 4 i + k multiplies block (i, k) of the
  activations by the weight tile of strip j and step k. That tile depends on j and k only: it is built from block
  (k, j) of the packed weights and of the scales, which the points (j, i, k) share for every i; it is stored in
  slot k of the tile cache at i = 0 and read from there at i > 0. The accumulator is cleared at k = 0, so after
  every point it is a function of the arguments alone; the cache's slots are so once they have been built, and
  until then hold whatever the region found there. So the invariant names no contents: it says which slots are
  built, what each holds, and what the accumulator holds when a step has been taken.
-/
import proofs.«404393_j2190433321407_3_alg».proof.Proof.KI.Setup
import proofs.«404393_j2190433321407_3_alg».proof.Proof.KI.Tiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The blocks at a point -/

/-- Block (i, k) of the activations. -/
abbrev aBlk (c : Dev nD) (t : Fin cfg0.N) : Vec F S1024x1024 .bf16 := iblk m c 0 t
/-- Block (k, j) of the packed weights. -/
abbrev bBlk (c : Dev nD) (t : Fin cfg0.N) : Vec F S128x512 .i32 := iblk m c 1 t
/-- Block (k, j) of the scales. -/
abbrev sBlk (c : Dev nD) (t : Fin cfg0.N) : Vec F S8x512 .f32 := iblk m c 2 t

/-- The weight tile of the point's strip and step. -/
def wT (c : Dev nD) (t : Fin cfg0.N) : Vec F S1x1024x512 .bf16 := k0_pay1 (bBlk m c t) (sBlk m c t)

/-- Where the packed-weight and scale windows sit at a point: block row k, block column j. -/
theorem idx1 : ∀ t : Fin cfg0.N, win0_1.index t (0 : Fin 2) = t.val % 4 ∧ win0_1.index t (1 : Fin 2) = t.val / 32 :=
  (by decide +kernel : ∀ t : Fin grid0.N, win0_1.index t (0 : Fin 2) = t.val % 4 ∧ win0_1.index t (1 : Fin 2) = t.val / 32)
theorem idx2 : ∀ t : Fin cfg0.N, win0_2.index t (0 : Fin 2) = t.val % 4 ∧ win0_2.index t (1 : Fin 2) = t.val / 32 :=
  (by decide +kernel : ∀ t : Fin grid0.N, win0_2.index t (0 : Fin 2) = t.val % 4 ∧ win0_2.index t (1 : Fin 2) = t.val / 32)

/-- Two points of one strip and one step see the same block of packed weights, -/
theorem bBlk_eq (c : Dev nD) (t t' : Fin cfg0.N) (hj : t.val / 32 = t'.val / 32) (hk : t.val % 4 = t'.val % 4) :
    bBlk m c t = bBlk m c t' := by
  funext y
  show V m c main_arg1 (((cfg0.win 1).blk t).view.emb y) = V m c main_arg1 (((cfg0.win 1).blk t').view.emb y)
  congr 1
  funext a
  apply Fin.ext
  show win0_1.index t a * S128x512.size a + 1 * (y a).val = win0_1.index t' a * S128x512.size a + 1 * (y a).val
  have h := idx1 t; have h' := idx1 t'
  match a with
  | ⟨0, _⟩ => rw [show win0_1.index t (⟨0, by decide⟩ : Fin 2) = _ from h.1, show win0_1.index t' (⟨0, by decide⟩ : Fin 2) = _ from h'.1, hk]
  | ⟨1, _⟩ => rw [show win0_1.index t (⟨1, by decide⟩ : Fin 2) = _ from h.2, show win0_1.index t' (⟨1, by decide⟩ : Fin 2) = _ from h'.2, hj]

/-- and of scales, -/
theorem sBlk_eq (c : Dev nD) (t t' : Fin cfg0.N) (hj : t.val / 32 = t'.val / 32) (hk : t.val % 4 = t'.val % 4) :
    sBlk m c t = sBlk m c t' := by
  funext y
  show V m c main_arg2 (((cfg0.win 2).blk t).view.emb y) = V m c main_arg2 (((cfg0.win 2).blk t').view.emb y)
  congr 1
  funext a
  apply Fin.ext
  show win0_2.index t a * S8x512.size a + 1 * (y a).val = win0_2.index t' a * S8x512.size a + 1 * (y a).val
  have h := idx2 t; have h' := idx2 t'
  match a with
  | ⟨0, _⟩ => rw [show win0_2.index t (⟨0, by decide⟩ : Fin 2) = _ from h.1, show win0_2.index t' (⟨0, by decide⟩ : Fin 2) = _ from h'.1, hk]
  | ⟨1, _⟩ => rw [show win0_2.index t (⟨1, by decide⟩ : Fin 2) = _ from h.2, show win0_2.index t' (⟨1, by decide⟩ : Fin 2) = _ from h'.2, hj]

/-- hence the same weight tile. -/
theorem wT_eq (c : Dev nD) (t t' : Fin cfg0.N) (hj : t.val / 32 = t'.val / 32) (hk : t.val % 4 = t'.val % 4) :
    wT m c t = wT m c t' := by
  unfold wT; rw [bBlk_eq m c t t' hj hk, sBlk_eq m c t t' hj hk]

/-! ## The accumulator after each point -/

/-- The accumulator after the body at point `n`: one accumulation step over the point's activation block and weight
    tile, from zero at step 0 and from what the point before left otherwise. -/
def accAfter (c : Dev nD) : (n : ℕ) → n < cfg0.N → Vec F S1024x512 .f32
  | 0, h => k0_pay3 (aBlk m c ⟨0, h⟩) (wT m c ⟨0, h⟩) (k0_pay2 (F := F))
  | n + 1, h => k0_pay3 (aBlk m c ⟨n + 1, h⟩) (wT m c ⟨n + 1, h⟩)
      (if (n + 1) % 4 = 0 then (k0_pay2 (F := F)) else accAfter c n (Nat.lt_of_succ_lt h))

theorem accAfter_reset (c : Dev nD) (t : Fin cfg0.N) (h : t.val % 4 = 0) :
    accAfter m c t.val t.isLt = k0_pay3 (aBlk m c t) (wT m c t) (k0_pay2 (F := F)) := by
  obtain ⟨n, hn⟩ := t
  cases n with
  | zero => rfl
  | succ n => show k0_pay3 _ _ (if (n + 1) % 4 = 0 then _ else _) = _; rw [if_pos h]

theorem accAfter_step (c : Dev nD) (t : Fin cfg0.N) (h : t.val % 4 ≠ 0) :
    accAfter m c t.val t.isLt
      = k0_pay3 (aBlk m c t) (wT m c t) (accAfter m c (t.val - 1) (Nat.lt_of_le_of_lt (Nat.sub_le _ _) t.isLt)) := by
  obtain ⟨n, hn⟩ := t
  cases n with
  | zero => exact absurd (Nat.zero_mod _) h
  | succ n => show k0_pay3 _ _ (if (n + 1) % 4 = 0 then _ else _) = _; rw [if_neg h]; rfl

/-! ## The invariant -/

/-- Slot `k` of the cache is inside it. -/
theorem slot_inb (k : ℕ) (hk : k < 4) : ∀ a, (![k, 0, 0] : Fin 3 → ℕ) a + S1x1024x512.size a ≤ S4x1024x512.size a := by
  intro a
  match a with
  | ⟨0, _⟩ => show k + 1 ≤ 4; omega
  | ⟨1, _⟩ => show 0 + 1024 ≤ 1024; omega
  | ⟨2, _⟩ => show 0 + 512 ≤ 512; omega

/-- What slot `k` of the cache holds. -/
def slot (W : Vec F S4x1024x512 .bf16) (k : ℕ) (hk : k < 4) : Vec F S1x1024x512 .bf16 :=
  View.ld W (Rect.unit (s := S4x1024x512) ![k, 0, 0] S1x1024x512.size (slot_inb k hk))

theorem strip_point_lt (n : ℕ) (hn : n ≤ cfg0.N) (k : ℕ) (hk : k < 4) (hb : (n / 4) % 8 ≠ 0 ∨ k < n % 4) :
    32 * (n / 32) + k < cfg0.N := by
  have hN : cfg0.N = 256 := N_0
  omega

/-- Before point `n`: slot `k` has been built in this strip if the row strip is past 0 or the step is past `k`, and
    then holds the tile of the strip's step `k`; and past step 0 the accumulator holds what the point before left. -/
structure Inv (c : Dev nD) (n : ℕ) (hn : n ≤ cfg0.N) (acc : Vec F S1024x512 .f32) (W : Vec F S4x1024x512 .bf16) : Prop where
  tiles : ∀ (k : ℕ) (hk : k < 4) (hb : (n / 4) % 8 ≠ 0 ∨ k < n % 4),
    slot W k hk = wT m c ⟨32 * (n / 32) + k, strip_point_lt n hn k hk hb⟩
  acc : ∀ (h : n % 4 ≠ 0), acc = accAfter m c (n - 1) (by have hN : cfg0.N = 256 := N_0; omega)

/-- Nothing is claimed before the first point. -/
theorem inv_zero (c : Dev nD) (acc : Vec F S1024x512 .f32) (W : Vec F S4x1024x512 .bf16) : Inv m c 0 (Nat.zero_le _) acc W :=
  ⟨fun k hk hb => by omega, fun h => absurd rfl h⟩

end Cert.KernelIdeal.Body

end
-- ==== Proof.KI.Step.lean ====
/-
  One point carries the invariant to the next. At a point of row strip 0 the body lays the point's tile into slot
  k, which builds that slot for the rest of the strip; at a later row strip the cache is unchanged and the slot
  read is one the invariant already names. Either way the accumulator becomes the point's own value, and the
  tile multiplied is the point's tile.
-/
import proofs.«404393_j2190433321407_3_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Past row strip 0 the slot the body reads holds the point's tile. -/
theorem slot_of_inv (c : Dev nD) (t : Fin cfg0.N) (hI0 : (t.val / 4) % 8 ≠ 0) {acc : Vec F S1024x512 .f32} {W : Vec F S4x1024x512 .bf16}
    (hI : Inv m c t.val (Nat.le_of_lt t.isLt) acc W) :
    View.ld W (Rect.unit (s := S4x1024x512) (k0_off2 (grid0.coords t)) S1x1024x512.size (Facts₀.k0_off2_inb (grid0.coords t)))
      = wT m c t := by
  have hk : t.val % 4 < 4 := Nat.mod_lt _ (by decide)
  rw [ld_unit_congr W (off2_eq t) _ (slot_inb _ hk)]
  show slot W (t.val % 4) hk = _
  rw [hI.tiles (t.val % 4) hk (Or.inl hI0)]
  exact wT_eq m c _ t (by show (32 * (t.val / 32) + t.val % 4) / 32 = t.val / 32; omega)
    (by show (32 * (t.val / 32) + t.val % 4) % 4 = t.val % 4; omega)

/-- The accumulation step from zero is the point's value at step 0, -/
theorem acc_next_reset (c : Dev nD) (t : Fin cfg0.N) (h0 : t.val % 4 = 0) :
    k0_pay3 (aBlk m c t) (wT m c t) (k0_pay2 (F := F)) = accAfter m c t.val t.isLt :=
  (accAfter_reset m c t h0).symm

/-- and from what the invariant names, past step 0. -/
theorem acc_next_step (c : Dev nD) (t : Fin cfg0.N) (h0 : t.val % 4 ≠ 0) {acc : Vec F S1024x512 .f32} {W : Vec F S4x1024x512 .bf16}
    (hI : Inv m c t.val (Nat.le_of_lt t.isLt) acc W) :
    k0_pay3 (aBlk m c t) (wT m c t) acc = accAfter m c t.val t.isLt := by
  rw [accAfter_step m c t h0, hI.acc h0]

/-- At row strip 0: the tile laid into slot k. -/
theorem inv_next_put (c : Dev nD) (t : Fin cfg0.N) (hI0 : (t.val / 4) % 8 = 0) {acc : Vec F S1024x512 .f32} {W : Vec F S4x1024x512 .bf16}
    (hI : Inv m c t.val (Nat.le_of_lt t.isLt) acc W) :
    Inv m c (t.val + 1) t.isLt (accAfter m c t.val t.isLt) (putTile W (k0_off1 (grid0.coords t)) (wT m c t)) where
  tiles := fun k hk hb => by
    have hN : t.val < 256 := lt_of_lt_of_eq t.isLt (show cfg0.N = 256 from N_0)
    rw [off1_eq t]
    by_cases hkk : k = t.val % 4
    · subst hkk
      show View.ld (putTile W ![t.val % 4, 0, 0] (wT m c t)) (Rect.unit (s := S4x1024x512) ![t.val % 4, 0, 0] S1x1024x512.size _) = _
      rw [ld_putTile_same]
      exact wT_eq m c t _ (by show t.val / 32 = (32 * ((t.val + 1) / 32) + t.val % 4) / 32; omega)
        (by show t.val % 4 = (32 * ((t.val + 1) / 32) + t.val % 4) % 4; omega)
    · show View.ld (putTile W ![t.val % 4, 0, 0] (wT m c t)) (Rect.unit (s := S4x1024x512) ![k, 0, 0] S1x1024x512.size (slot_inb k hk)) = _
      rw [ld_putTile_apart W _ _ _ _ (0 : Fin 3) (by show k + 1 ≤ t.val % 4 ∨ t.val % 4 + 1 ≤ k; omega)]
      have hlt : (t.val / 4) % 8 ≠ 0 ∨ k < t.val % 4 := by omega
      exact (hI.tiles k hk hlt).trans (wT_eq m c _ _ (by show (32 * (t.val / 32) + k) / 32 = (32 * ((t.val + 1) / 32) + k) / 32; omega)
        (by show (32 * (t.val / 32) + k) % 4 = (32 * ((t.val + 1) / 32) + k) % 4; omega))
  acc := fun _ => rfl

/-- Past row strip 0: the cache unchanged. -/
theorem inv_next_keep (c : Dev nD) (t : Fin cfg0.N) (hI0 : (t.val / 4) % 8 ≠ 0) {acc : Vec F S1024x512 .f32} {W : Vec F S4x1024x512 .bf16}
    (hI : Inv m c t.val (Nat.le_of_lt t.isLt) acc W) :
    Inv m c (t.val + 1) t.isLt (accAfter m c t.val t.isLt) W where
  tiles := fun k hk hb => by
    have hN : t.val < 256 := lt_of_lt_of_eq t.isLt (show cfg0.N = 256 from N_0)
    by_cases hs : (t.val + 1) / 32 = t.val / 32
    · exact (hI.tiles k hk (Or.inl hI0)).trans (wT_eq m c _ _ (by show (32 * (t.val / 32) + k) / 32 = (32 * ((t.val + 1) / 32) + k) / 32; omega)
        (by show (32 * (t.val / 32) + k) % 4 = (32 * ((t.val + 1) / 32) + k) % 4; omega))
    · exfalso; omega
  acc := fun _ => rfl

end Cert.KernelIdeal.Body

end
-- ==== Proof.KI.RunA.lean ====
/-
  One call of the kernel body at a point where the weight tile is rebuilt (row strip 0) and the accumulator is
  cleared (contraction step 0), and nothing is copied out. From whole buffers at any contents the body runs to its
  end; it leaves the accumulator at one accumulation step from zero over the tile just built, the tile cache with
  that tile laid over what it held, and everything else as it was.
-/
import proofs.«404393_j2190433321407_3_alg».proof.Proof.KI.Setup
import proofs.«404393_j2190433321407_3_alg».proof.Proof.KI.Tiles
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator and in the tile cache, with the run. -/
noncomputable def runA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LW : List (View.Piece (Elt F) S4x1024x512 .bf16) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexact HW

theorem zero2 : (![0, 0] : Fin 2 → ℕ) = fun _ => 0 := by
  funext a; fin_cases a <;> rfl

/-- The accumulator after such a call: one step from zero over the tile just built. -/
theorem runA_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runA c i arg3 harg3 arg4 harg4 arg5 harg5 arg6 harg6 arg7 harg7 arg8 harg8 h1 h2 h3 a b s acc W).1)
      = k0_pay3 a (k0_pay1 b s) (k0_pay2 (F := F)) := by
  unfold runA; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2, View.readCov_cons_toLoadRect]
  simp only [View.readAt_eq_ld, harg3.read_unread, harg4.read_unread, harg5.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runA_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runA c i arg3 harg3 arg4 harg4 arg5 harg5 arg6 harg6 arg7 harg7 arg8 harg8 h1 h2 h3 a b s acc W).2.1)
      = putTile W (k0_off1 i) (k0_pay1 b s) := by
  unfold runA; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The body at such a point, its result stated outright. -/
theorem bodyA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (k0_pay1 b s) (k0_pay2 (F := F)))
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runA c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runA_acc c i arg3 harg3 arg4 harg4 arg5 harg5 arg6 harg6 arg7 harg7 arg8 harg8 h1 h2 h3 a b s acc W
  unfold owns; iexists _; isplitr
  swap; · iexact HW
  ipureintro; exact runA_W c i arg3 harg3 arg4 harg4 arg5 harg5 arg6 harg6 arg7 harg7 arg8 harg8 h1 h2 h3 a b s acc W

end Cert.KernelIdeal.Body

end
-- ==== Proof.KI.RunB.lean ====
/-
  One call of the kernel body at a point where the weight tile is rebuilt (row strip 0), a contraction step past the first and before the last. From whole buffers at any contents the body runs to its
  end, and what it leaves in each buffer is stated outright.
-/
import proofs.«404393_j2190433321407_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator and in the tile cache, with the run. -/
noncomputable def runB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LW : List (View.Piece (Elt F) S4x1024x512 .bf16) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexact HW

/-- The accumulator after such a call: one step on from what it held, over the tile just built. -/
theorem runB_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runB c i arg3 harg3 arg4 harg4 arg5 harg5 arg6 harg6 arg7 harg7 arg8 harg8 h1 h2 h3 a b s acc W).1)
      = k0_pay3 a (k0_pay1 b s) acc := by
  unfold runB; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runB_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runB c i arg3 harg3 arg4 harg4 arg5 harg5 arg6 harg6 arg7 harg7 arg8 harg8 h1 h2 h3 a b s acc W).2.1)
      = putTile W (k0_off1 i) (k0_pay1 b s) := by
  unfold runB; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The body at such a point, its result stated outright. -/
theorem bodyB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (k0_pay1 b s) acc)
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runB c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runB_acc c i arg3 harg3 arg4 harg4 arg5 harg5 arg6 harg6 arg7 harg7 arg8 harg8 h1 h2 h3 a b s acc W
  unfold owns; iexists _; isplitr
  swap; · iexact HW
  ipureintro; exact runB_W c i arg3 harg3 arg4 harg4 arg5 harg5 arg6 harg6 arg7 harg7 arg8 harg8 h1 h2 h3 a b s acc W

end Cert.KernelIdeal.Body

end
-- ==== Proof.KI.RunC.lean ====
/-
  One call of the kernel body at a point where the weight tile is rebuilt (row strip 0) at the last contraction step, where the accumulator is copied out. From whole buffers at any contents the body runs to its
  end, and what it leaves in each buffer is stated outright.
-/
import proofs.«404393_j2190433321407_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator, in the tile cache and in the output block, with the run. -/
noncomputable def runC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)) (LW : List (View.Piece (Elt F) S4x1024x512 .bf16)), { LO : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ (arg6.view.loc (c : Thread nD τ) ↦[arg6.view.set]{fullShare} arg6.view.writes (Elt F) (harg6.unread o) LO)
                ∗ (arg7.view.loc (c : Thread nD τ) ↦[arg7.view.set]{fullShare} arg7.view.writes (Elt F) (harg7.unread acc) LA)
                ∗ (arg8.view.loc (c : Thread nD τ) ↦[arg8.view.set]{fullShare} arg8.view.writes (Elt F) (harg8.unread W) LW)) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexact H3
    isplitl [HA]
    · iexact HA
    iexact HW

/-- The accumulator after such a call: one step on from what it held, over the tile just built. -/
theorem runC_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runC c i arg3 harg3 arg4 harg4 arg5 harg5 arg6 harg6 arg7 harg7 arg8 harg8 h1 h2 h3 a b s acc W).1)
      = k0_pay3 a (k0_pay1 b s) acc := by
  unfold runC; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The tile cache after such a call: the tile just built laid over what it held. -/
theorem runC_W (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg8.view.read (Elt F) (arg8.view.writes (Elt F) (harg8.unread W) (runC c i arg3 harg3 arg4 harg4 arg5 harg5 arg6 harg6 arg7 harg7 arg8 harg8 h1 h2 h3 a b s acc W).2.1)
      = putTile W (k0_off1 i) (k0_pay1 b s) := by
  unfold runC; dsimp only; sl_unfold_run_names
  rw [read_writes_putTile, harg8.read_unread]
  simp only [View.readAt_eq_ld, harg4.read_unread, harg5.read_unread, View.ld_unit_zero (S := S1024x1024) zero2, View.ld_unit_zero (S := S128x512) zero2, View.ld_unit_zero (S := S8x512) zero2, View.ld_unit_zero (S := S1024x512) zero2]

/-- The output block after such a call: the accumulator as the call left it. -/
theorem runC_out (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) :
    arg6.view.read (Elt F) (arg6.view.writes (Elt F) (harg6.unread o) (runC c i arg3 harg3 arg4 harg4 arg5 harg5 arg6 harg6 arg7 harg7 arg8 harg8 h1 h2 h3 a b s acc W).2.2.1)
      = k0_pay3 a (k0_pay1 b s) acc := by
  unfold runC; dsimp only; sl_unfold_words
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2, View.readCov_cons_toLoadRect]
  simp only [View.readAt_eq_ld, harg3.read_unread, harg4.read_unread, harg5.read_unread, harg7.read_unread, View.ld_unit_zero (S := S1024x1024) zero2, View.ld_unit_zero (S := S128x512) zero2, View.ld_unit_zero (S := S8x512) zero2, View.ld_unit_zero (S := S1024x512) zero2]

/-- The body at such a point, its result stated outright. -/
theorem bodyC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare (k0_pay3 a (k0_pay1 b s) acc)
            ∗ owns (c : Thread nD τ) arg7 fullShare (k0_pay3 a (k0_pay1 b s) acc)
            ∗ owns (c : Thread nD τ) arg8 fullShare (putTile W (k0_off1 i) (k0_pay1 b s))) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runC c i arg3 harg3 arg4 harg4 arg5 harg5 arg6 harg6 arg7 harg7 arg8 harg8 h1 h2 h3 a b s acc W).2.2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]
  · unfold owns; iexists _; isplitr
    swap; · iexact H3
    ipureintro; exact runC_out c i arg3 harg3 arg4 harg4 arg5 harg5 arg6 harg6 arg7 harg7 arg8 harg8 h1 h2 h3 a b s acc W o
  isplitl [HA]
  · unfold owns; iexists _; isplitr
    swap; · iexact HA
    ipureintro; exact runC_acc c i arg3 harg3 arg4 harg4 arg5 harg5 arg6 harg6 arg7 harg7 arg8 harg8 h1 h2 h3 a b s acc W
  unfold owns; iexists _; isplitr
  swap; · iexact HW
  ipureintro; exact runC_W c i arg3 harg3 arg4 harg4 arg5 harg5 arg6 harg6 arg7 harg7 arg8 harg8 h1 h2 h3 a b s acc W

end Cert.KernelIdeal.Body

end
-- ==== Proof.KI.RunD.lean ====
/-
  One call of the kernel body at a point where the weight tile is read from the cache (row strip past 0) and the accumulator is cleared (step 0). From whole buffers at any contents the body runs to its
  end, and what it leaves in each buffer is stated outright.
-/
import proofs.«404393_j2190433321407_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator, with the run. -/
noncomputable def runD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) :
    { LA : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexists _; isplitr; · ipureintro; exact harg8.read_unread _
    iexact HW

/-- The accumulator after such a call: one step from zero over the cached tile of this contraction step. -/
theorem runD_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runD c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) (k0_pay2 (F := F)) := by
  unfold runD; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2]
  simp only [View.readAt_eq_ld, harg3.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (View.ld W (Rect.unit (s := S4x1024x512) (k0_off2 i) S1x1024x512.size (Facts₀.k0_off2_inb i))) (k0_pay2 (F := F)))
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runD c i arg3 harg3 arg4 harg4 arg5 harg5 arg6 harg6 arg7 harg7 arg8 harg8 h1 h2 h3 a b s acc W).2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runD_acc c i arg3 harg3 arg4 harg4 arg5 harg5 arg6 harg6 arg7 harg7 arg8 harg8 h1 h2 h3 a b s acc W
  iexact HW

end Cert.KernelIdeal.Body

end
-- ==== Proof.KI.RunE.lean ====
/-
  One call of the kernel body at a point where the weight tile is read from the cache (row strip past 0), a contraction step past the first and before the last. From whole buffers at any contents the body runs to its
  end, and what it leaves in each buffer is stated outright.
-/
import proofs.«404393_j2190433321407_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator, with the run. -/
noncomputable def runE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    { LA : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ owns (c : Thread nD τ) arg6 fullShare o
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HA]
    · iexact HA
    iexists _; isplitr; · ipureintro; exact harg8.read_unread _
    iexact HW

/-- The accumulator after such a call: one step on from what it held, over the cached tile of this contraction step. -/
theorem runE_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runE c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) acc := by
  unfold runE; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : ¬cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare o
            ∗ owns (c : Thread nD τ) arg7 fullShare (k0_pay3 a (View.ld W (Rect.unit (s := S4x1024x512) (k0_off2 i) S1x1024x512.size (Facts₀.k0_off2_inb i))) acc)
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runE c i arg3 harg3 arg4 harg4 arg5 harg5 arg6 harg6 arg7 harg7 arg8 harg8 h1 h2 h3 a b s acc W).2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]; · iexact H3
  isplitl [HA]
  · unfold owns; iexists _; isplitr
    swap; · iexact HA
    ipureintro; exact runE_acc c i arg3 harg3 arg4 harg4 arg5 harg5 arg6 harg6 arg7 harg7 arg8 harg8 h1 h2 h3 a b s acc W
  iexact HW

end Cert.KernelIdeal.Body

end
-- ==== Proof.KI.RunG.lean ====
/-
  One call of the kernel body at a point where the weight tile is read from the cache (row strip past 0) at the last contraction step, where the accumulator is copied out. From whole buffers at any contents the body runs to its
  end, and what it leaves in each buffer is stated outright.
-/
import proofs.«404393_j2190433321407_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the accumulator and in the output block, with the run. -/
noncomputable def runG (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) :
    Σ' (LA : List (View.Piece (Elt F) S1024x512 .f32)), { LO : List (View.Piece (Elt F) S1024x512 .f32) //
      ∀ (o : Vec F S1024x512 .f32) (E : Set ℕ) (K : PUnit → sProp 𝕄),
        iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
            ∗ (iprop(owns (c : Thread nD τ) arg3 fullShare a ∗ owns (c : Thread nD τ) arg4 fullShare b ∗ owns (c : Thread nD τ) arg5 fullShare s
                ∗ (arg6.view.loc (c : Thread nD τ) ↦[arg6.view.set]{fullShare} arg6.view.writes (Elt F) (harg6.unread o) LO)
                ∗ (arg7.view.loc (c : Thread nD τ) ↦[arg7.view.set]{fullShare} arg7.view.writes (Elt F) (harg7.unread acc) LA)
                ∗ owns (c : Thread nD τ) arg8 fullShare W) -∗ K ⟨⟩))
          ⊢ wp frame (wpE (defs₀ (F := F)) Variants.none c none) E (cc0__marlin_kernel i arg3 harg3 arg4 harg4 arg5 harg5 arg6 harg6 arg7 harg7 arg8 harg8) K } := by
  refine ⟨?_, ?_, fun o E K => ?run⟩
  case run =>
    simp only [cc0__marlin_kernel_eq_skeleton]; unfold cc0__marlin_kernel_skel
    unfold owns
    iintro ⟨⟨%f0, %hf0, H0⟩, ⟨%f1, %hf1, H1⟩, ⟨%f2, %hf2, H2⟩, ⟨%f3, %hf3, H3⟩, ⟨%fa, %hfa, HA⟩, ⟨%fw, %hfw, HW⟩, Hk⟩
    obtain rfl := harg3.eq_unread hf0; obtain rfl := harg4.eq_unread hf1; obtain rfl := harg5.eq_unread hf2
    obtain rfl := harg6.eq_unread hf3; obtain rfl := harg7.eq_unread hfa; obtain rfl := harg8.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexact H3
    isplitl [HA]
    · iexact HA
    iexists _; isplitr; · ipureintro; exact harg8.read_unread _
    iexact HW

/-- The accumulator after such a call: one step on from what it held, over the cached tile of this contraction step. -/
theorem runG_acc (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) :
    arg7.view.read (Elt F) (arg7.view.writes (Elt F) (harg7.unread acc) (runG c i arg3 harg3 arg4 harg4 arg5 harg5 arg6 harg6 arg7 harg7 arg8 harg8 h1 h2 h3 a b s acc W).1)
      = k0_pay3 a (View.ld W (Rect.unit (s := S4x1024x512) (k0_off2 i) S1x1024x512.size (Facts₀.k0_off2_inb i))) acc := by
  unfold runG; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The output block after such a call: the accumulator as the call left it. -/
theorem runG_out (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) :
    arg6.view.read (Elt F) (arg6.view.writes (Elt F) (harg6.unread o) (runG c i arg3 harg3 arg4 harg4 arg5 harg5 arg6 harg6 arg7 harg7 arg8 harg8 h1 h2 h3 a b s acc W).2.1)
      = k0_pay3 a (View.ld W (Rect.unit (s := S4x1024x512) (k0_off2 i) S1x1024x512.size (Facts₀.k0_off2_inb i))) acc := by
  unfold runG; dsimp only; sl_unfold_run_names
  rw [View.read_writes_eq_canon _ _ _ (fun y => ⟨_, List.mem_cons_self, View.mem_set_unit_zero zero2 Facts₀.inb_S1024x512_S1024x512_0_0 y⟩)]
  rw [View.canon_cons_unit_zero zero2]
  rw [View.readCov_unit_zero _ zero2]
  simp only [View.readAt_eq_ld, harg3.read_unread, harg7.read_unread, harg8.read_unread, View.ld_unit_zero (S := S1024x1024) zero2, View.ld_unit_zero (S := S128x512) zero2, View.ld_unit_zero (S := S8x512) zero2, View.ld_unit_zero (S := S1024x512) zero2]

/-- The body at such a point, its result stated outright. -/
theorem bodyG (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S1024x512 .f32) (harg6 : arg6.IsWhole)
    (arg7 : Memref sig .tc .vmem S1024x512 .f32) (harg7 : arg7.IsWhole) (arg8 : Memref sig .tc .vmem S4x1024x512 .bf16) (harg8 : arg8.IsWhole)
    (h1 : ¬cI i) (h2 : ¬cK0 i) (h3 : cK3 i)
    (a : Vec F S1024x1024 .bf16) (b : Vec F S128x512 .i32) (s : Vec F S8x512 .f32) (acc : Vec F S1024x512 .f32) (W : Vec F S4x1024x512 .bf16) (o : Vec F S1024x512 .f32) (E : Set ℕ) (K : PUnit → sProp 𝕄) :
    iprop(owns (c : Thread nD τ) arg3 fullShare a ∗ owns (c : Thread nD τ) arg4 fullShare b ∗ owns (c : Thread nD τ) arg5 fullShare s
            ∗ owns (c : Thread nD τ) arg6 fullShare o ∗ owns (c : Thread nD τ) arg7 fullShare acc ∗ owns (c : Thread nD τ) arg8 fullShare W
        ∗ (iprop(owns (c : Thread nD τ) arg3 fullShare a ∗ owns (c : Thread nD τ) arg4 fullShare b ∗ owns (c : Thread nD τ) arg5 fullShare s
            ∗ owns (c : Thread nD τ) arg6 fullShare (k0_pay3 a (View.ld W (Rect.unit (s := S4x1024x512) (k0_off2 i) S1x1024x512.size (Facts₀.k0_off2_inb i))) acc)
            ∗ owns (c : Thread nD τ) arg7 fullShare (k0_pay3 a (View.ld W (Rect.unit (s := S4x1024x512) (k0_off2 i) S1x1024x512.size (Facts₀.k0_off2_inb i))) acc)
            ∗ owns (c : Thread nD τ) arg8 fullShare W) -∗ K ⟨⟩))
      ⊢ wp frame (wpE (defs₀ (F := F)) Variants.none c none) E (cc0__marlin_kernel i arg3 harg3 arg4 harg4 arg5 harg5 arg6 harg6 arg7 harg7 arg8 harg8) K := by
  iintro ⟨H0, H1, H2, H3, HA, HW, Hk⟩
  iapply ((runG c i arg3 harg3 arg4 harg4 arg5 harg5 arg6 harg6 arg7 harg7 arg8 harg8 h1 h2 h3 a b s acc W).2.2 o E K)
  isplitl [H0]; · iexact H0
  isplitl [H1]; · iexact H1
  isplitl [H2]; · iexact H2
  isplitl [H3]; · iexact H3
  isplitl [HA]; · iexact HA
  isplitl [HW]; · iexact HW
  iintro ⟨H0, H1, H2, H3, HA, HW⟩
  iapply Hk
  isplitl [H0]; · iexact H0
  isplitl [H1]; · iexact H1
  isplitl [H2]; · iexact H2
  isplitl [H3]
  · unfold owns; iexists _; isplitr
    swap; · iexact H3
    ipureintro; exact runG_out c i arg3 harg3 arg4 harg4 arg5 harg5 arg6 harg6 arg7 harg7 arg8 harg8 h1 h2 h3 a b s acc W o
  isplitl [HA]
  · unfold owns; iexists _; isplitr
    swap; · iexact HA
    ipureintro; exact runG_acc c i arg3 harg3 arg4 harg4 arg5 harg5 arg6 harg6 arg7 harg7 arg8 harg8 h1 h2 h3 a b s acc W
  iexact HW

end Cert.KernelIdeal.Body

end
-- ==== Proof.KI.Body.lean ====
/-
  The frame of the kernel's one region. The region's invariant, point by point, is the two scratch buffers at some
  contents that satisfy the invariant of the point; the body at each point is one of six cases, decided by the
  point's coordinates; each case hands the buffers back at contents that satisfy the next point's invariant, the
  inputs' blocks untouched, and the output block either untouched (not written back there) or at the accumulated
  value (at the last contraction step, where it is written back). From the obligation at every point the
  pipeline library's launch theorem gives the run of the whole program: it terminates, faults nowhere, leaves its
  argument arrays unchanged and the result array at the blocks written back.
-/
import proofs.«404393_j2190433321407_3_alg».proof.Proof.KI.Step
import proofs.«404393_j2190433321407_3_alg».proof.Proof.KI.RunA
import proofs.«404393_j2190433321407_3_alg».proof.Proof.KI.RunB
import proofs.«404393_j2190433321407_3_alg».proof.Proof.KI.RunC
import proofs.«404393_j2190433321407_3_alg».proof.Proof.KI.RunD
import proofs.«404393_j2190433321407_3_alg».proof.Proof.KI.RunE
import proofs.«404393_j2190433321407_3_alg».proof.Proof.KI.RunG

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and the proof data -/

/-- Before point `n`: the accumulator and the tile cache whole, at contents the point's invariant admits, and the
    generator register at some state. -/
def Phi (c : Dev nD) (n : ℕ) (hn : n ≤ cfg0.N) : sProp 𝕄 :=
  iprop(∃ acc, ∃ W, ⌜Inv m c n hn acc W⌝ ∗ owns (c : Thread nD τ) accM fullShare acc ∗ owns (c : Thread nD τ) wM fullShare W
    ∗ (∃ r, prngReg c r))

/-- The proof data: the arrays as the region finds them; after the body each input's buffer at its block and the
    output's at the accumulator's value; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAfter m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem Phi_succ (c : Dev nD) (t : Fin cfg0.N) :
    (dats m 0 c).Φ t.succ = Phi m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAfter m c t.val t.isLt := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the coordinates decide the case; the invariant names the tile read from the cache and
    the accumulator carried over; the case's result satisfies the next point's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [Phi_succ, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases hI0 : (t.val / 4) % 8 = 0
  · by_cases h0 : t.val % 4 = 0
    · by_cases h3 : t.val % 4 = 3
      · exfalso; omega
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyA c (grid0.coords t) (ms0 t) (hs0 t) (ms1 t) (hs1 t) (ms2 t) (hs2 t) (ms3 t) (hs3 t) accM (Memref.isWhole_whole _) wM (Memref.isWhole_whole _)
        ((hcI t).mpr hI0) ((hcK0 t).mpr h0) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_reset m c t h0]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
    · by_cases h3 : t.val % 4 = 3
      rw [show (dats m 0 c).leavesExact 3 t = owns (c : Thread nD τ) (ms3 t) fullShare ((dats m 0 c).after 3 t) from by
        unfold Dat.leavesExact; rw [live3 t ((hcK3 t).mpr h3)], after3]
      unfold Phi
      iintro ⟨⟨%acc, %W, %hI, HA, HW, Hg⟩, Ho, ⟨%d0, H0⟩, ⟨%d1, H1⟩, ⟨%d2, H2⟩, ⟨%d3, H3⟩⟩
      iapply (bodyC c (grid0.coords t) (ms0 t) (hs0 t) (ms1 t) (hs1 t) (ms2 t) (hs2 t) (ms3 t) (hs3 t) accM (Memref.isWhole_whole _) wM (Memref.isWhole_whole _)
        ((hcI t).mpr hI0) (fun h => h0 ((hcK0 t).mp h)) ((hcK3 t).mpr h3) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_step m c t h0 hI]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexact H3
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyB c (grid0.coords t) (ms0 t) (hs0 t) (ms1 t) (hs1 t) (ms2 t) (hs2 t) (ms3 t) (hs3 t) accM (Memref.isWhole_whole _) wM (Memref.isWhole_whole _)
        ((hcI t).mpr hI0) (fun h => h0 ((hcK0 t).mp h)) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [show k0_pay1 (bBlk m c t) (sBlk m c t) = wT m c t from rfl, acc_next_step m c t h0 hI]
      isplitl [HA HW Hg]
      · iexists (accAfter m c t.val t.isLt), (putTile W (k0_off1 (grid0.coords t)) (wT m c t))
        isplitr
        · ipureintro; exact inv_next_put m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
  · by_cases h0 : t.val % 4 = 0
    · by_cases h3 : t.val % 4 = 3
      · exfalso; omega
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyD c (grid0.coords t) (ms0 t) (hs0 t) (ms1 t) (hs1 t) (ms2 t) (hs2 t) (ms3 t) (hs3 t) accM (Memref.isWhole_whole _) wM (Memref.isWhole_whole _)
        (fun h => hI0 ((hcI t).mp h)) ((hcK0 t).mpr h0) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_reset m c t h0]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3
    · by_cases h3 : t.val % 4 = 3
      rw [show (dats m 0 c).leavesExact 3 t = owns (c : Thread nD τ) (ms3 t) fullShare ((dats m 0 c).after 3 t) from by
        unfold Dat.leavesExact; rw [live3 t ((hcK3 t).mpr h3)], after3]
      unfold Phi
      iintro ⟨⟨%acc, %W, %hI, HA, HW, Hg⟩, Ho, ⟨%d0, H0⟩, ⟨%d1, H1⟩, ⟨%d2, H2⟩, ⟨%d3, H3⟩⟩
      iapply (bodyG c (grid0.coords t) (ms0 t) (hs0 t) (ms1 t) (hs1 t) (ms2 t) (hs2 t) (ms3 t) (hs3 t) accM (Memref.isWhole_whole _) wM (Memref.isWhole_whole _)
        (fun h => hI0 ((hcI t).mp h)) (fun h => h0 ((hcK0 t).mp h)) ((hcK3 t).mpr h3) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_step m c t h0 hI]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexact H3
      rw [Dat.leavesExact_idle (dats m 0 c) 3 t (idle3 t (fun h => h3 ((hcK3 t).mp h))) (noFlush3 t (fun h => h3 ((hcK3 t).mp h)))]
      unfold Phi
      iintro ⟨⟨%acc, %W, %hI, HA, HW, Hg⟩, Ho, ⟨%d0, H0⟩, ⟨%d1, H1⟩, ⟨%d2, H2⟩, ⟨%d3, H3⟩⟩
      iapply (bodyE c (grid0.coords t) (ms0 t) (hs0 t) (ms1 t) (hs1 t) (ms2 t) (hs2 t) (ms3 t) (hs3 t) accM (Memref.isWhole_whole _) wM (Memref.isWhole_whole _)
        (fun h => hI0 ((hcI t).mp h)) (fun h => h0 ((hcK0 t).mp h)) (fun h => h3 ((hcK3 t).mp h)) (aBlk m c t) (bBlk m c t) (sBlk m c t) acc W ((dats m 0 c).before 3 t d3) Set.univ _)
      isplitl [H0]; · iexact H0
      isplitl [H1]; · iexact H1
      isplitl [H2]; · iexact H2
      isplitl [H3]; · iexact H3
      isplitl [HA]; · iexact HA
      isplitl [HW]; · iexact HW
      iintro ⟨H0, H1, H2, H3, HA, HW⟩
      rw [slot_of_inv m c t hI0 hI, acc_next_step m c t h0 hI]
      isplitl [HA HW Hg]
      · iexists (accAfter m c t.val t.isLt), W
        isplitr
        · ipureintro; exact inv_next_keep m c t hI0 hI
        isplitl [HA]; · iexact HA
        isplitl [HW]; · iexact HW
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed there. -/
theorem hin (c : Dev nD) : Pipeline.ΦA spec0 c ⊢ (dats m 0 c).Φ 0 := by
  rw [show (dats m 0 c).Φ 0 = Phi m c 0 (Nat.zero_le _) from rfl, PhiA_eq]
  unfold Phi
  iintro ⟨⟨⟨%acc, HA⟩, ⟨%W, HW⟩⟩, Hg⟩
  iexists acc, W
  isplitr
  · ipureintro; exact inv_zero m c acc W
  isplitl [HA]; · iexact HA
  isplitl [HW]; · iexact HW
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, PhiA_eq]
  unfold Phi
  iintro ⟨%acc, %W, -, HA, HW, Hg⟩
  isplitl [HA HW]
  · isplitl [HA]
    · iexists _; iexact HA
    iexists _; iexact HW
  iexact Hg

/-! ## The run and the frame -/

set_option backward.isDefEq.respectTransparency.types false in
/-- Every weakly fair execution of the program terminates, and every final state has each array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Value.Blocks.lean ====
/-
  Each window's block at a point, read at an entry, is an entry of an argument array. Point t = 32 j + 4 i + k.
  The activation block (i, k): entry (p, kk) is A[1024 i + p, 1024 k + kk] — the host's change of format before the
  region is the identity over the reals. The packed-weight block (k, j): entry (r, q) is B[128 k + r, 512 j + q].
  The scale block (k, j): entry (g, q) is s[8 k + g, 512 j + q].
-/
import proofs.«404393_j2190433321407_3_alg».proof.Proof.KI.State
import Idealize.ShloMosaic.Lib.ValueIdx
import Idealize.ShloMosaic.Lib.StableHlo.Run
import Idealize.ShloMosaic.PureOps.Ideal

set_option maxRecDepth 16384

noncomputable section

namespace Cert.Value.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- Where the activation window sits at a point: block row i, block column k. -/
theorem idx0 : ∀ t : Fin cfg0.N, win0_0.index t (0 : Fin 2) = (t.val / 4) % 8 ∧ win0_0.index t (1 : Fin 2) = t.val % 4 :=
  (by decide +kernel : ∀ t : Fin grid0.N, win0_0.index t (0 : Fin 2) = (t.val / 4) % 8 ∧ win0_0.index t (1 : Fin 2) = t.val % 4)

/-- The array the activation window reads: the first argument, its format changed on the host. -/
theorem V_v0 (c : Dev nD) (y : S8192x4096.Idx) :
    V m c main_v0 y = m ((c : Thread nD τ).loc main_arg0) y := by
  have e : @Eq (S8192x4096.Idx → Elt Ideal .bf16) (V m c main_v0)
      (truncf (F := Ideal) .bf16 (m ((c : Thread nD τ).loc main_arg0)) Facts₀.bitsLt_bf16_f32) := by
    dsimp only [V, hostOps0]; after_results
  exact congrFun e y

theorem aBlk_apply (c : Dev nD) (t : Fin cfg0.N) (p kk : Fin 1024) :
    aBlk m c t (ix2 p kk)
      = m ((c : Thread nD τ).loc main_arg0) (ix2 (⟨1024 * ((t.val / 4) % 8) + p.val, by omega⟩ : Fin 8192) (⟨1024 * (t.val % 4) + kk.val, by omega⟩ : Fin 4096)) := by
  show V m c main_v0 (((cfg0.win 0).blk t).view.emb (ix2 p kk)) = _
  rw [V_v0]
  congr 1
  funext a
  apply Fin.ext
  match a with
  | ⟨0, _⟩ => show win0_0.index t (0 : Fin 2) * 1024 + 1 * p.val = 1024 * ((t.val / 4) % 8) + p.val; rw [(idx0 t).1]; omega
  | ⟨1, _⟩ => show win0_0.index t (1 : Fin 2) * 1024 + 1 * kk.val = 1024 * (t.val % 4) + kk.val; rw [(idx0 t).2]; omega

theorem bBlk_apply (c : Dev nD) (t : Fin cfg0.N) (r : Fin 128) (q : Fin 512) :
    bBlk m c t (ix2 r q)
      = m ((c : Thread nD τ).loc main_arg1) (ix2 (⟨128 * (t.val % 4) + r.val, by omega⟩ : Fin 512)
          (⟨512 * (t.val / 32) + q.val, by have := lt_of_lt_of_eq t.isLt (show cfg0.N = 256 from N_0); omega⟩ : Fin 4096)) := by
  show V m c main_arg1 (((cfg0.win 1).blk t).view.emb (ix2 r q)) = _
  rw [V_main_arg1]
  congr 1
  funext a
  apply Fin.ext
  match a with
  | ⟨0, _⟩ => show win0_1.index t (0 : Fin 2) * 128 + 1 * r.val = 128 * (t.val % 4) + r.val; rw [(idx1 t).1]; omega
  | ⟨1, _⟩ => show win0_1.index t (1 : Fin 2) * 512 + 1 * q.val = 512 * (t.val / 32) + q.val; rw [(idx1 t).2]; omega

theorem sBlk_apply (c : Dev nD) (t : Fin cfg0.N) (g : Fin 8) (q : Fin 512) :
    sBlk m c t (ix2 g q)
      = m ((c : Thread nD τ).loc main_arg2) (ix2 (⟨8 * (t.val % 4) + g.val, by omega⟩ : Fin 32)
          (⟨512 * (t.val / 32) + q.val, by have := lt_of_lt_of_eq t.isLt (show cfg0.N = 256 from N_0); omega⟩ : Fin 4096)) := by
  show V m c main_arg2 (((cfg0.win 2).blk t).view.emb (ix2 g q)) = _
  rw [V_main_arg2]
  congr 1
  funext a
  apply Fin.ext
  match a with
  | ⟨0, _⟩ => show win0_2.index t (0 : Fin 2) * 8 + 1 * g.val = 8 * (t.val % 4) + g.val; rw [(idx2 t).1]; omega
  | ⟨1, _⟩ => show win0_2.index t (1 : Fin 2) * 512 + 1 * q.val = 512 * (t.val / 32) + q.val; rw [(idx2 t).2]; omega

end Cert.Value.Ker

end
-- ==== Proof.Value.Spec.lean ====
/-
  What both programs compute, as one function of the three argument arrays over the extended reals.
  A : 8192 × 4096 reals. B : 512 × 4096 words, each packing eight 4-bit weights along the contraction axis
  (weight K of a column is nibble K mod 8 of word K / 8). s : 32 × 4096 scales, one per group of 128 weights.
  The dequantized weight is  wq K n = (nibble − 8) · s[K / 128, n],  and the result is the matrix product
  C[p, n] = Σ_K A[p, K] · wq K n.
-/
import Idealize.ShloMosaic.PureOps.Ideal
import Idealize.ShloMosaic.Lib.ValueIdx

noncomputable section

open scoped BigOperators

namespace Cert.Spec

open Idealize.ShloMosaic Idealize.ShloMosaic.ValueIdx

/-- Nibble `j` of the word `x` (the word shifted right arithmetically by 4 j, masked to four bits), as a real,
    less 8. -/
def nib (x : BitVec 32) (j : ℕ) : EReal :=
  FloatOps.sitofp (F := Ideal) .f32 (IntOp.andi (x.sshiftRight' (IntOp.muli (BitVec.ofNat 32 j) 4#32)) 15#32)
    - Ideal.ofBits .f32 0x41000000#32

/-- The dequantized weight at row `K`, column `n`. -/
def wq (B : (⟨2, ![512, 4096]⟩ : Shape).Idx → BitVec 32) (s : (⟨2, ![32, 4096]⟩ : Shape).Idx → EReal)
    (K n : Fin 4096) : EReal :=
  nib (B (ix2 (⟨K.val / 8, by omega⟩ : Fin 512) n)) (K.val % 8) * s (ix2 (⟨K.val / 128, by omega⟩ : Fin 32) n)

/-- The product at row `p`, column `n`. -/
def Gat (A : (⟨2, ![8192, 4096]⟩ : Shape).Idx → EReal) (B : (⟨2, ![512, 4096]⟩ : Shape).Idx → BitVec 32)
    (s : (⟨2, ![32, 4096]⟩ : Shape).Idx → EReal) (p : Fin 8192) (n : Fin 4096) : EReal :=
  ∑ K : Fin 4096, A (ix2 p K) * wq B s K n

/-- The whole result array. -/
def G (A : (⟨2, ![8192, 4096]⟩ : Shape).Idx → EReal) (B : (⟨2, ![512, 4096]⟩ : Shape).Idx → BitVec 32)
    (s : (⟨2, ![32, 4096]⟩ : Shape).Idx → EReal) : (⟨2, ![8192, 4096]⟩ : Shape).Idx → EReal :=
  fun y => Gat A B s ⟨(y 0).val, idx2_lt0 y⟩ ⟨(y 1).val, idx2_lt1 y⟩

/-- A shift count 4 j with j < 8 is below the word width, so both shift units shift arithmetically. -/
theorem shift_lt (j : ℕ) (hj : j < 8) : (IntOp.muli (BitVec.ofNat 32 j) 4#32).toNat < 32 := by
  interval_cases j <;> decide

theorem shrsi_eq (u : ArithUnit) (x : BitVec 32) (j : ℕ) (hj : j < 8) :
    IntOp.shrsi u x (IntOp.muli (BitVec.ofNat 32 j) 4#32) = x.sshiftRight' (IntOp.muli (BitVec.ofNat 32 j) 4#32) := by
  unfold IntOp.shrsi
  rw [if_pos (shift_lt j hj)]

end Cert.Spec

end
-- ==== Proof.Value.Pay.lean ====
/-
  The kernel body's two computations read at an index over the extended reals. The dequantization of one block:
  row r of the 1024 × 512 tile takes nibble r mod 8 of packed row r / 8 of the 128 × 512 block, less 8, times the
  scale of row r / 128 of the 8 × 512 block (changes of float format are the identity). The accumulation step: the
  accumulator plus the product of the 1024 × 1024 activation block with the tile, a sum over the 1024 inner indices.
-/
import proofs.«404393_j2190433321407_3_alg».proof.Proof.Gen.KernelIdeal.Skeleton
import proofs.«404393_j2190433321407_3_alg».proof.Proof.Value.Spec
import Idealize.ShloMosaic.Lib.Pipeline.Value
import Idealize.ShloMosaic.Lib.ValueLayout
import Idealize.ShloMosaic.PureOps.Ideal.Laws

noncomputable section

open scoped BigOperators

namespace Cert.Value.Pay

open Idealize.ShloMosaic Idealize.ShloMosaic.ValueIdx Cert.KernelIdeal Cert.KernelIdeal.Gen

/-! ## The integer operations at an index (pointwise by definition) -/

section
variable {s : Shape} {w : Nat}
theorem andi_apply (x y : IVec s w) (i : s.Idx) : andi x y i = IntOp.andi (x i) (y i) := rfl
theorem shrsi_apply (x y : IVec s w) (i : s.Idx) : shrsi x y i = IntOp.shrsi .vector (x i) (y i) := rfl
theorem muli_apply (x y : IVec s w) (i : s.Idx) : muli x y i = IntOp.muli (x i) (y i) := rfl
end

/-! ## The layout operations of the dequantization at an index -/

/-- Row r of the 1024 x 512 tile is position (r / 8, r mod 8) of the 128 x 8 leading axes. -/
theorem cast_nib_apply {α : Type} (x : S128x8x512.Idx → α) (r : Fin 1024) (q : Fin 512) :
    shapeCast S1024x512 x shapeCasts_S128x8x512_S1024x512 (ix2 r q)
      = x (ix3 (⟨r.val / 8, by omega⟩ : Fin 128) (⟨r.val % 8, by omega⟩ : Fin 8) q) := by
  refine shapeCast_apply x shapeCasts_S128x8x512_S1024x512 _ _ ?_
  rw [Shape.rowMajor_val_three, Shape.rowMajor_val_two]
  show (r.val / 8 * 8 + r.val % 8) * 512 + q.val = r.val * 512 + q.val
  omega

/-- Row r of the 1024 x 512 tile is position (r / 128, r mod 128) of the 8 x 128 leading axes. -/
theorem cast_scale_apply {α : Type} (x : S8x128x512.Idx → α) (r : Fin 1024) (q : Fin 512) :
    shapeCast S1024x512 x shapeCasts_S8x128x512_S1024x512 (ix2 r q)
      = x (ix3 (⟨r.val / 128, by omega⟩ : Fin 8) (⟨r.val % 128, by omega⟩ : Fin 128) q) := by
  refine shapeCast_apply x shapeCasts_S8x128x512_S1024x512 _ _ ?_
  rw [Shape.rowMajor_val_three, Shape.rowMajor_val_two]
  show (r.val / 128 * 128 + r.val % 128) * 512 + q.val = r.val * 512 + q.val
  omega

/-- The packed block repeated along the new middle axis of extent 8. -/
theorem bcast_nib_apply {α : Type} (x : S128x1x512.Idx → α) (i : Fin 128) (j : Fin 8) (q : Fin 512) :
    broadcastTo S128x8x512 x broadcasts_S128x1x512_S128x8x512 (ix3 i j q) = x (ix3 i (0 : Fin 1) q) := by
  refine broadcastTo_apply x broadcasts_S128x1x512_S128x8x512 _ _ fun a => ?_
  match a with
  | ⟨0, _⟩ => show i.val = if (128 : ℕ) = 1 then 0 else i.val; rw [if_neg (by decide)]
  | ⟨1, _⟩ => show (0 : ℕ) = if (1 : ℕ) = 1 then 0 else j.val; rw [if_pos rfl]
  | ⟨2, _⟩ => show q.val = if (512 : ℕ) = 1 then 0 else q.val; rw [if_neg (by decide)]

/-- The scales repeated along the new middle axis of extent 128. -/
theorem bcast_scale_apply {α : Type} (x : S8x1x512.Idx → α) (i : Fin 8) (j : Fin 128) (q : Fin 512) :
    broadcastTo S8x128x512 x broadcasts_S8x1x512_S8x128x512 (ix3 i j q) = x (ix3 i (0 : Fin 1) q) := by
  refine broadcastTo_apply x broadcasts_S8x1x512_S8x128x512 _ _ fun a => ?_
  match a with
  | ⟨0, _⟩ => show i.val = if (8 : ℕ) = 1 then 0 else i.val; rw [if_neg (by decide)]
  | ⟨1, _⟩ => show (0 : ℕ) = if (1 : ℕ) = 1 then 0 else j.val; rw [if_pos rfl]
  | ⟨2, _⟩ => show q.val = if (512 : ℕ) = 1 then 0 else q.val; rw [if_neg (by decide)]

/-- A unit middle axis inserted into the 128 x 512 block. -/
theorem unit_nib_apply {α : Type} (x : S128x512.Idx → α) (i : Fin 128) (q : Fin 512) :
    shapeCast S128x1x512 x shapeCasts_S128x512_S128x1x512 (ix3 i (0 : Fin 1) q) = x (ix2 i q) := by
  refine shapeCast_apply x shapeCasts_S128x512_S128x1x512 _ _ ?_
  rw [Shape.rowMajor_val_two, Shape.rowMajor_val_three]
  show i.val * 512 + q.val = (i.val * 1 + 0) * 512 + q.val
  omega

/-- A unit middle axis inserted into the 8 x 512 scales. -/
theorem unit_scale_apply {α : Type} (x : S8x512.Idx → α) (i : Fin 8) (q : Fin 512) :
    shapeCast S8x1x512 x shapeCasts_S8x512_S8x1x512 (ix3 i (0 : Fin 1) q) = x (ix2 i q) := by
  refine shapeCast_apply x shapeCasts_S8x512_S8x1x512 _ _ ?_
  rw [Shape.rowMajor_val_two, Shape.rowMajor_val_three]
  show i.val * 512 + q.val = (i.val * 1 + 0) * 512 + q.val
  omega

/-- The shift counts' index: the coordinate on the middle axis. -/
theorem iota_mid_apply (i : Fin 128) (j : Fin 8) (q : Fin 512) :
    iota .tc S128x8x512 32 [1] iota_S128x8x512_d1_w32 (ix3 i j q) = BitVec.ofNat 32 j.val := by
  show BitVec.ofNat 32 (0 * 8 + j.val) = BitVec.ofNat 32 j.val
  rw [Nat.zero_mul, Nat.zero_add]

/-- The dequantized tile at row `r`, column `q`. -/
theorem pay1_apply (b : Vec Ideal S128x512 .i32) (s : Vec Ideal S8x512 .f32) (r : Fin 1024) (q : Fin 512) :
    k0_pay1 (F := Ideal) b s (ix3 (0 : Fin 1) r q)
      = Cert.Spec.nib (b (ix2 (⟨r.val / 8, by omega⟩ : Fin 128) q)) (r.val % 8) * s (ix2 (⟨r.val / 128, by omega⟩ : Fin 8) q) := by
  unfold k0_pay1
  refine (shapeCast_apply _ shapeCasts_S1024x512_S1x1024x512 _ (ix2 r q) ?_).trans ?_
  · rw [Shape.rowMajor_val_two, Shape.rowMajor_val_three]
    show r.val * 512 + q.val = ((0 : ℕ) * 1024 + r.val) * 512 + q.val
    omega
  rw [truncf_apply, mulf_apply, subf_apply, sitofp_apply, broadcast_apply, cast_nib_apply, cast_scale_apply,
    andi_apply, shrsi_apply, muli_apply, broadcast_apply, broadcast_apply,
    bcast_nib_apply, bcast_scale_apply, shapeCast_self, shapeCast_self, unit_nib_apply, unit_scale_apply,
    iota_mid_apply]
  show (FloatOps.sitofp (F := Ideal) .f32 (IntOp.andi (IntOp.shrsi .vector (b (ix2 (⟨r.val / 8, by omega⟩ : Fin 128) q))
      (IntOp.muli (BitVec.ofNat 32 (r.val % 8)) 4#32)) 15#32) - Ideal.ofBits .f32 0x41000000#32)
        * s (ix2 (⟨r.val / 128, by omega⟩ : Fin 8) q) = _
  rw [Cert.Spec.shrsi_eq .vector _ (r.val % 8) (Nat.mod_lt _ (by decide))]
  rfl

/-- The cleared accumulator is zero everywhere. -/
theorem pay2_apply (y : S1024x512.Idx) : k0_pay2 (F := Ideal) y = 0 := by
  unfold k0_pay2
  rw [shapeCast_self]
  exact Ideal.ofBits_zero_f32

/-! ## The operand indices of the 1024 x 1024 by 1024 x 512 product, axis by axis -/

/-- The left operand's row is the output's row. -/
theorem lhs_pay3_0 (i : S1024x512.Idx) (c : dot_S1024x1024_S1024x512_S1024x512_1_0_0_1_n_n.contr.Idx) :
    (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The left operand's column is the inner index. -/
theorem lhs_pay3_1 (i : S1024x512.Idx) (c : dot_S1024x1024_S1024x512_S1024x512_1_0_0_1_n_n.contr.Idx) :
    (dot_S1024x1024_S1024x512_S1024x512_1_0_0_1_n_n.lhsIdx i c 1).val = (c ⟨0, by decide⟩).val :=
  dot_S1024x1024_S1024x512_S1024x512_1_0_0_1_n_n.lhsIdx_val_of_single rfl i c

/-- The right operand's row is the inner index. -/
theorem rhs_pay3_0 (i : S1024x512.Idx) (c : dot_S1024x1024_S1024x512_S1024x512_1_0_0_1_n_n.contr.Idx) :
    (dot_S1024x1024_S1024x512_S1024x512_1_0_0_1_n_n.rhsIdx i c 0).val = (c ⟨0, by decide⟩).val :=
  dot_S1024x1024_S1024x512_S1024x512_1_0_0_1_n_n.rhsIdx_val_of_single rfl i c

/-- The right operand's column is the output's column. -/
theorem rhs_pay3_1 (i : S1024x512.Idx) (c : dot_S1024x1024_S1024x512_S1024x512_1_0_0_1_n_n.contr.Idx) :
    (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- One accumulation step at row `p`, column `q`. -/
theorem pay3_apply (a : Vec Ideal S1024x1024 .bf16) (w : Vec Ideal S1x1024x512 .bf16) (acc : Vec Ideal S1024x512 .f32)
    (p : Fin 1024) (q : Fin 512) :
    k0_pay3 (F := Ideal) a w acc (ix2 p q)
      = acc (ix2 p q) + ∑ kk : Fin 1024, a (ix2 p kk) * w (ix3 (0 : Fin 1) kk q) := by
  unfold k0_pay3
  rw [shapeCast_self, shapeCast_self, addf_apply]
  simp only [matmul]
  rw [Ideal.matmul_constant_zero_apply,
    ← Equiv.sum_comp (contrEquiv1 dot_S1024x1024_S1024x512_S1024x512_1_0_0_1_n_n 1024 rfl rfl).symm]
  refine congrArg _ (Finset.sum_congr rfl fun kk _ => ?_)
  have hk := contrEquiv1_symm_val dot_S1024x1024_S1024x512_S1024x512_1_0_0_1_n_n 1024 rfl rfl kk
  have el : dot_S1024x1024_S1024x512_S1024x512_1_0_0_1_n_n.lhsIdx (ix2 p q)
      ((contrEquiv1 dot_S1024x1024_S1024x512_S1024x512_1_0_0_1_n_n 1024 rfl rfl).symm kk) = ix2 p kk :=
    funext fun x => Fin.ext (by
      match x with
      | ⟨0, _⟩ => exact lhs_pay3_0 _ _
      | ⟨1, _⟩ => exact (lhs_pay3_1 _ _).trans hk)
  rw [el]
  refine congrArg _ ?_
  -- the tile without its leading unit axis, read at the right operand's index
  refine shapeCast_apply w shapeCasts_S1x1024x512_S1024x512 _ (ix3 (0 : Fin 1) kk q) ?_
  rw [Shape.rowMajor_val_three, Shape.rowMajor_val_two, rhs_pay3_0, rhs_pay3_1, hk]
  show ((0 : ℕ) * 1024 + kk.val) * 512 + q.val = kk.val * 512 + q.val
  omega

end Cert.Value.Pay

end
-- ==== Proof.Value.KerSum.lean ====
/-
  The accumulator at the last contraction step is the product's entry. In coordinates (j, i, k), point 32 j + 4 i + k
  adds to the accumulator, at entry (p, q), the partial sum over the 1024 inner indices of step k:
    Σ_kk A[1024 i + p, 1024 k + kk] · wq(1024 k + kk, 512 j + q),
  each factor read off the point's blocks. Starting from zero at k = 0, after k = 3 the accumulator holds the four
  partial sums added in order, which is the sum over all 4096 inner indices split into four runs of 1024: a sum in
  a commutative monoid, regrouped.
-/
import proofs.«404393_j2190433321407_3_alg».proof.Proof.Value.Blocks
import proofs.«404393_j2190433321407_3_alg».proof.Proof.Value.Pay
import proofs.«404393_j2190433321407_3_alg».proof.Proof.Value.Spec

set_option maxRecDepth 16384

noncomputable section

open scoped BigOperators

namespace Cert.Value.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The partial sum of contraction step `k` at row `P`, column `n` of the result. -/
def partSum (A : (⟨2, ![8192, 4096]⟩ : Shape).Idx → EReal) (B : (⟨2, ![512, 4096]⟩ : Shape).Idx → BitVec 32)
    (s : (⟨2, ![32, 4096]⟩ : Shape).Idx → EReal) (P : Fin 8192) (n : Fin 4096) (k : ℕ) (hk : k < 4) : EReal :=
  ∑ kk : Fin 1024, A (ix2 P (⟨1024 * k + kk.val, by omega⟩ : Fin 4096)) * Cert.Spec.wq B s (⟨1024 * k + kk.val, by omega⟩ : Fin 4096) n

/-- A sum over 4096 indices is its four runs of 1024 added from zero, in order. -/
theorem sum_split4 (f : Fin 4096 → EReal) :
    ∑ K : Fin 4096, f K
      = (((0 + ∑ kk : Fin 1024, f ⟨1024 * 0 + kk.val, by omega⟩) + ∑ kk : Fin 1024, f ⟨1024 * 1 + kk.val, by omega⟩)
          + ∑ kk : Fin 1024, f ⟨1024 * 2 + kk.val, by omega⟩) + ∑ kk : Fin 1024, f ⟨1024 * 3 + kk.val, by omega⟩ := by
  have h3 := Fin.sum_univ_add (a := 1024 + 1024 + 1024) (b := 1024) (f : Fin (1024 + 1024 + 1024 + 1024) → EReal)
  have h2 := Fin.sum_univ_add (a := 1024 + 1024) (b := 1024) (fun x => (f : Fin (1024 + 1024 + 1024 + 1024) → EReal) (Fin.castAdd 1024 x))
  have h1 := Fin.sum_univ_add (a := 1024) (b := 1024) (fun x => (f : Fin (1024 + 1024 + 1024 + 1024) → EReal) (Fin.castAdd 1024 (Fin.castAdd 1024 x)))
  rw [zero_add]
  refine h3.trans ?_
  rw [h2, h1]
  rfl

theorem accAfter_congr (c : Dev nD) {n n' : ℕ} (e : n = n') (h : n < cfg0.N) (h' : n' < cfg0.N) :
    accAfter m c n h = accAfter m c n' h' := by
  subst e; rfl

theorem point_lt (j i k : ℕ) (hj : j < 8) (hi : i < 8) (hk : k < 4) : 32 * j + 4 * i + k < cfg0.N := by
  have hN : cfg0.N = 256 := N_0
  omega

/-- What point (j, i, k) adds at entry (p, q): the partial sum of step k. -/
theorem term_eq (c : Dev nD) (j i k : ℕ) (hj : j < 8) (hi : i < 8) (hk : k < 4) (p : Fin 1024) (q : Fin 512) :
    ∑ kk : Fin 1024, aBlk m c ⟨32 * j + 4 * i + k, point_lt j i k hj hi hk⟩ (ix2 p kk)
        * wT m c ⟨32 * j + 4 * i + k, point_lt j i k hj hi hk⟩ (ix3 (0 : Fin 1) kk q)
      = partSum (m ((c : Thread nD τ).loc main_arg0)) (m ((c : Thread nD τ).loc main_arg1)) (m ((c : Thread nD τ).loc main_arg2))
          (⟨1024 * i + p.val, by omega⟩ : Fin 8192) (⟨512 * j + q.val, by omega⟩ : Fin 4096) k hk := by
  unfold partSum
  refine Finset.sum_congr rfl fun kk _ => ?_
  rw [aBlk_apply]
  unfold wT
  rw [Cert.Value.Pay.pay1_apply, bBlk_apply, sBlk_apply]
  unfold Cert.Spec.wq
  have hkk : kk.val < 1024 := kk.isLt
  have hp : p.val < 1024 := p.isLt
  have hq : q.val < 512 := q.isLt
  have e1 : (⟨1024 * (((32 * j + 4 * i + k) / 4) % 8) + p.val, by omega⟩ : Fin 8192) = ⟨1024 * i + p.val, by omega⟩ := Fin.ext (by show 1024 * (((32 * j + 4 * i + k) / 4) % 8) + p.val = 1024 * i + p.val; omega)
  have e2 : (⟨1024 * ((32 * j + 4 * i + k) % 4) + kk.val, by omega⟩ : Fin 4096) = ⟨1024 * k + kk.val, by omega⟩ := Fin.ext (by show 1024 * ((32 * j + 4 * i + k) % 4) + kk.val = 1024 * k + kk.val; omega)
  have e3 : (⟨128 * ((32 * j + 4 * i + k) % 4) + kk.val / 8, by omega⟩ : Fin 512) = ⟨(1024 * k + kk.val) / 8, by omega⟩ := Fin.ext (by show 128 * ((32 * j + 4 * i + k) % 4) + kk.val / 8 = (1024 * k + kk.val) / 8; omega)
  have e4 : (⟨512 * ((32 * j + 4 * i + k) / 32) + q.val, by omega⟩ : Fin 4096) = ⟨512 * j + q.val, by omega⟩ := Fin.ext (by show 512 * ((32 * j + 4 * i + k) / 32) + q.val = 512 * j + q.val; omega)
  have e5 : (⟨8 * ((32 * j + 4 * i + k) % 4) + kk.val / 128, by omega⟩ : Fin 32) = ⟨(1024 * k + kk.val) / 128, by omega⟩ := Fin.ext (by show 8 * ((32 * j + 4 * i + k) % 4) + kk.val / 128 = (1024 * k + kk.val) / 128; omega)
  have e6 : kk.val % 8 = (1024 * k + kk.val) % 8 := by omega
  simp only [Fin.val_mk]
  rw [e1, e2, e3, e4, e5, e6]

/-- The accumulator after point (j, i, 0): zero plus the first partial sum. -/
theorem acc_k0 (c : Dev nD) (j i : ℕ) (hj : j < 8) (hi : i < 8) (p : Fin 1024) (q : Fin 512) :
    accAfter m c (32 * j + 4 * i + 0) (point_lt j i 0 hj hi (by omega)) (ix2 p q)
      = 0 + partSum (m ((c : Thread nD τ).loc main_arg0)) (m ((c : Thread nD τ).loc main_arg1)) (m ((c : Thread nD τ).loc main_arg2))
          (⟨1024 * i + p.val, by omega⟩ : Fin 8192) (⟨512 * j + q.val, by omega⟩ : Fin 4096) 0 (by omega) := by
  have h := accAfter_reset m c ⟨32 * j + 4 * i + 0, point_lt j i 0 hj hi (by omega)⟩ (by show (32 * j + 4 * i + 0) % 4 = 0; omega)
  rw [show accAfter m c (32 * j + 4 * i + 0) (point_lt j i 0 hj hi (by omega)) = _ from h]
  rw [Cert.Value.Pay.pay3_apply, Cert.Value.Pay.pay2_apply, term_eq m c j i 0 hj hi (by omega) p q]

/-- The accumulator after point (j, i, k + 1): what point (j, i, k) left plus the next partial sum. -/
theorem acc_succ (c : Dev nD) (j i k : ℕ) (hj : j < 8) (hi : i < 8) (hk : k + 1 < 4) (p : Fin 1024) (q : Fin 512) :
    accAfter m c (32 * j + 4 * i + (k + 1)) (point_lt j i (k + 1) hj hi hk) (ix2 p q)
      = accAfter m c (32 * j + 4 * i + k) (point_lt j i k hj hi (by omega)) (ix2 p q)
        + partSum (m ((c : Thread nD τ).loc main_arg0)) (m ((c : Thread nD τ).loc main_arg1)) (m ((c : Thread nD τ).loc main_arg2))
          (⟨1024 * i + p.val, by omega⟩ : Fin 8192) (⟨512 * j + q.val, by omega⟩ : Fin 4096) (k + 1) hk := by
  have h := accAfter_step m c ⟨32 * j + 4 * i + (k + 1), point_lt j i (k + 1) hj hi hk⟩ (by show (32 * j + 4 * i + (k + 1)) % 4 ≠ 0; omega)
  rw [show accAfter m c (32 * j + 4 * i + (k + 1)) (point_lt j i (k + 1) hj hi hk) = _ from h]
  rw [Cert.Value.Pay.pay3_apply, term_eq m c j i (k + 1) hj hi hk p q]
  rfl

/-- At the last contraction step the accumulator's entry (p, q) is the product's entry (1024 i + p, 512 j + q). -/
theorem acc_k3 (c : Dev nD) (j i : ℕ) (hj : j < 8) (hi : i < 8) (p : Fin 1024) (q : Fin 512) :
    accAfter m c (32 * j + 4 * i + 3) (point_lt j i 3 hj hi (by omega)) (ix2 p q)
      = Cert.Spec.Gat (m ((c : Thread nD τ).loc main_arg0)) (m ((c : Thread nD τ).loc main_arg1)) (m ((c : Thread nD τ).loc main_arg2))
          (⟨1024 * i + p.val, by omega⟩ : Fin 8192) (⟨512 * j + q.val, by omega⟩ : Fin 4096) := by
  rw [acc_succ m c j i 2 hj hi (by omega) p q, acc_succ m c j i 1 hj hi (by omega) p q, acc_succ m c j i 0 hj hi (by omega) p q,
    acc_k0 m c j i hj hi p q]
  unfold Cert.Spec.Gat
  rw [sum_split4]
  rfl

end Cert.Value.Ker

end
-- ==== Proof.Value.Final.lean ====
/-
  The result array after the run. The output block (i, j) is written back once, at the last contraction step of
  point (j, i, 3), holding the accumulator: entry (p, q) of it is the product's entry (1024 i + p, 512 j + q). The
  64 blocks tile the 8192 × 4096 result, so the array ends as the product of the argument arrays, whole.
-/
import proofs.«404393_j2190433321407_3_alg».proof.Proof.KI.Body
import proofs.«404393_j2190433321407_3_alg».proof.Proof.Value.KerSum

set_option maxRecDepth 16384

noncomputable section

open scoped BigOperators

namespace Cert.Value.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

/-- Where the output window sits at a point: block row i, block column j. -/
theorem idx3 : ∀ t : Fin cfg0.N, win0_3.index t (0 : Fin 2) = (t.val / 4) % 8 ∧ win0_3.index t (1 : Fin 2) = t.val / 32 :=
  (by decide +kernel : ∀ t : Fin grid0.N, win0_3.index t (0 : Fin 2) = (t.val / 4) % 8 ∧ win0_3.index t (1 : Fin 2) = t.val / 32)

/-- The product of the argument arrays as core `c` was launched with them. -/
abbrev Gk (c : Dev nD) : S8192x4096.Idx → EReal :=
  Cert.Spec.G (m ((c : Thread nD τ).loc main_arg0)) (m ((c : Thread nD τ).loc main_arg1)) (m ((c : Thread nD τ).loc main_arg2))

/-- The accumulator at a last-step point, entry by entry. -/
theorem acc_flush_apply (c : Dev nD) (t : Fin cfg0.N) (h3 : t.val % 4 = 3) (y : S1024x512.Idx) :
    accAfter m c t.val t.isLt y
      = Cert.Spec.Gat (m ((c : Thread nD τ).loc main_arg0)) (m ((c : Thread nD τ).loc main_arg1)) (m ((c : Thread nD τ).loc main_arg2))
          (⟨1024 * ((t.val / 4) % 8) + (y 0).val, by have := (y 0).isLt; have : (y 0).val < 1024 := this; omega⟩ : Fin 8192)
          (⟨512 * (t.val / 32) + (y 1).val, by
              have hN : t.val < 256 := lt_of_lt_of_eq t.isLt (show cfg0.N = 256 from N_0)
              have : (y 1).val < 512 := (y 1).isLt
              omega⟩ : Fin 4096) := by
  have hN : t.val < 256 := lt_of_lt_of_eq t.isLt (show cfg0.N = 256 from N_0)
  obtain ⟨p, q, rfl⟩ : ∃ (p : Fin 1024) (q : Fin 512), y = ix2 p q := ⟨y 0, y 1, eq_ix2 y⟩
  have e : t.val = 32 * (t.val / 32) + 4 * ((t.val / 4) % 8) + 3 := by omega
  rw [accAfter_congr m c e t.isLt (point_lt _ _ 3 (by omega) (by omega) (by omega))]
  exact acc_k3 m c (t.val / 32) ((t.val / 4) % 8) (by omega) (by omega) p q

/-- What a last-step point writes back is its block of the product. -/
theorem flushed3_eq (c : Dev nD) (t : Fin cfg0.N) (hf : (cfg0.win 3).flush t = true) :
    (dats m 0 c).flushed 3 t = ((cfg0.win 3).blk t).view.read (Elt Ideal) (Gk m c) := by
  have h3 : t.val % 4 = 3 := (flush0_3 t).mp hf
  show (cfg0.win 3).cut (grid0.coords t) ((dats m 0 c).after 3 t) = _
  rw [after3]
  funext y
  refine (acc_flush_apply m c t h3 y).trans ?_
  show _ = Gk m c (((cfg0.win 3).blk t).view.emb y)
  show _ = Cert.Spec.Gat _ _ _ ⟨((((cfg0.win 3).blk t).view.emb y) 0).val, _⟩ ⟨((((cfg0.win 3).blk t).view.emb y) 1).val, _⟩
  congr 1
  · apply Fin.ext
    show 1024 * ((t.val / 4) % 8) + (y 0).val = win0_3.index t (0 : Fin 2) * 1024 + 1 * (y 0).val
    rw [(idx3 t).1]; omega
  · apply Fin.ext
    show 512 * (t.val / 32) + (y 1).val = win0_3.index t (1 : Fin 2) * 512 + 1 * (y 1).val
    rw [(idx3 t).2]; omega

/-- An entry of the result is in point `t`'s block iff each coordinate is in the block's range on its axis. -/
theorem mem_blk3 (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- Every entry of the result lies in the block some last-step point writes back. -/
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  refine ⟨⟨32 * ((i 1).val / 512) + 4 * ((i 0).val / 1024) + 3, by omega⟩, (flush0_3 _).mpr (by show (32 * ((i 1).val / 512) + 4 * ((i 0).val / 1024) + 3) % 4 = 3; omega), ?_⟩
  rw [mem_blk3]
  intro a
  match a with
  | ⟨0, _⟩ =>
    show win0_3.index _ (0 : Fin 2) * 1024 ≤ (i 0).val ∧ (i 0).val < win0_3.index _ (0 : Fin 2) * 1024 + 1024
    rw [(idx3 _).1]
    show ((32 * ((i 1).val / 512) + 4 * ((i 0).val / 1024) + 3) / 4) % 8 * 1024 ≤ (i 0).val
      ∧ (i 0).val < ((32 * ((i 1).val / 512) + 4 * ((i 0).val / 1024) + 3) / 4) % 8 * 1024 + 1024
    omega
  | ⟨1, _⟩ =>
    show win0_3.index _ (1 : Fin 2) * 512 ≤ (i 1).val ∧ (i 1).val < win0_3.index _ (1 : Fin 2) * 512 + 512
    rw [(idx3 _).2]
    show (32 * ((i 1).val / 512) + 4 * ((i 0).val / 1024) + 3) / 32 * 512 ≤ (i 1).val
      ∧ (i 1).val < (32 * ((i 1).val / 512) + 4 * ((i 0).val / 1024) + 3) / 32 * 512 + 512
    omega

/-- The result array after the run is the product, whole. -/
theorem final3 (c : Dev nD) : (dats m 0 c).arrAt 3 cfg0.N = Gk m c :=
  (dats m 0 c).arrAt_eq_of_cover 3 (Gk m c) (fun t hf => flushed3_eq m c t hf) (cover3)

/-- The kernel's run at the ideal instance: it ends with the result array at the product of the argument arrays and
    the arguments unchanged. -/
theorem run : θ_run defs (onTc (τ := τ) (main (F := Ideal))) ⟨m, fun _ => 0, ρ⟩ fun r => ∀ c : Dev nD,
      r.2.mem ((c.tc : Thread nD τ).loc main_v1) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Value.Ker

end
-- ==== Proof.Value.Ref.lean ====
/-
  The reference program's result, read one operation at a time, is the specification: at row p and column n the
  host's dot_general is the sum over K of A[p, K] times the dequantized weight, whose factors the reference builds
  by broadcasting the packed words along a new axis of eight shifts, shifting, masking, reshaping, converting,
  subtracting 8 and multiplying by the scales repeated along each group of 128 rows.
-/
import proofs.«404393_j2190433321407_3_alg».proof.Proof.Gen.ReferenceIdeal.Read
import proofs.«404393_j2190433321407_3_alg».proof.Proof.Value.Spec

noncomputable section

open scoped BigOperators

namespace Cert.Value.Ref

open Idealize.ShloMosaic Idealize.ShloMosaic.ValueIdx Cert.ReferenceIdeal Cert.ReferenceIdeal.Gen

/-- The left operand of the contraction is read at row p, column K. -/
theorem lidx_eq (p : Fin 8192) (n K : Fin 4096) : Read.lidx_main_v17 (ix2 p n) K = ix2 p K :=
  funext fun a => Fin.ext (by match a with | ⟨0, _⟩ => rfl | ⟨1, _⟩ => rfl)

/-- Row K, column n of the 4096 × 4096 matrix of nibbles comes from word K / 8 of column n: the flat position
    K · 4096 + n, divided by 8 · 4096, is K / 8, and its remainder modulo 4096 is n. -/
theorem word_idx_eq (p : Fin 8192) (n K : Fin 4096) :
    Read.idx_main_v3 (Read.idx_main_v5 (Read.idx_main_v10 (Read.ridx_main_v17 (ix2 p n) K)))
      = ix2 (⟨K.val / 8, by omega⟩ : Fin 512) n :=
  funext fun a => Fin.ext (by
    have hK : K.val < 4096 := K.isLt
    have hn : n.val < 4096 := n.isLt
    match a with
    | ⟨0, _⟩ => show (K.val * 4096 + n.val) / 32768 = K.val / 8; omega
    | ⟨1, _⟩ => show (K.val * 4096 + n.val) % 4096 = n.val; omega)

/-- Row K of the matrix of nibbles is shifted by shift number K mod 8. -/
theorem shift_idx_eq (p : Fin 8192) (n K : Fin 4096) :
    (Read.idx_main_v4 (Read.idx_main_v6 (Read.idx_main_v10 (Read.ridx_main_v17 (ix2 p n) K))) 0).val = K.val % 8 := by
  have hK : K.val < 4096 := K.isLt
  have hn : n.val < 4096 := n.isLt
  show (K.val * 4096 + n.val) / 4096 % 8 = K.val % 8
  omega

/-- Row K, column n of the scales repeated along each group of 128 rows is scale K / 128 of column n. -/
theorem scale_idx_eq (p : Fin 8192) (n K : Fin 4096) :
    Read.idx_main_v14 (Read.idx_main_v15 (Read.ridx_main_v17 (ix2 p n) K))
      = ix2 (⟨K.val / 128, by omega⟩ : Fin 32) n :=
  funext fun a => Fin.ext (by
    have hK : K.val < 4096 := K.isLt
    have hn : n.val < 4096 := n.isLt
    match a with
    | ⟨0, _⟩ => show (K.val * 4096 + n.val) / 524288 = K.val / 128; omega
    | ⟨1, _⟩ => show (K.val * 4096 + n.val) % 4096 = n.val; omega)

/-- The reference's result term at the ideal instance is the specification of the three argument arrays. -/
theorem ref_eq_G (x0 : (⟨S8192x4096, .f32⟩ : BufTy).Contents (Elt Ideal)) (x1 : (⟨S512x4096, .i32⟩ : BufTy).Contents (Elt Ideal))
    (x2 : (⟨S32x4096, .f32⟩ : BufTy).Contents (Elt Ideal)) :
    Cert.ReferenceIdeal.Read.val_main_v17 (F := Ideal) x0 x1 x2 = Cert.Spec.G x0 x1 x2 := by
  funext i
  obtain ⟨p, n, rfl⟩ : ∃ (p : Fin 8192) (n : Fin 4096), i = ix2 p n := ⟨i 0, i 1, eq_ix2 i⟩
  -- the contraction is a sum over K; the specification at (p, n) is the same sum
  rw [Read.val_main_v17_apply]
  show _ = Cert.Spec.Gat x0 x1 x2 p n
  unfold Cert.Spec.Gat
  refine Finset.sum_congr rfl fun K _ => ?_
  -- the right factor at row K, column n, one operation at a time, outermost first
  rw [Read.val_main_v16_apply, Read.val_main_v13_apply, Read.val_main_v11_apply, Read.val_main_v10_apply,
    Read.val_main_v9_apply, Read.val_main_v7_apply, Read.val_main_v5_apply, Read.val_main_v3_apply,
    Read.val_main_v6_apply, Read.val_main_v4_apply, Read.val_main_v2_apply, Read.val_main_v0_apply,
    Read.val_main_v1_apply, Read.val_main_c_apply, Read.val_main_v8_apply, Read.val_main_c_0_apply,
    Read.val_main_v12_apply, Read.val_main_cst_apply, Read.val_main_v15_apply, Read.val_main_v14_apply]
  -- the composed index maps are word K / 8, shift K mod 8, scale K / 128; a shift count below 32 shifts arithmetically
  unfold Cert.Spec.wq Cert.Spec.nib
  rw [lidx_eq, word_idx_eq, shift_idx_eq, scale_idx_eq,
    Cert.Spec.shrsi_eq _ _ _ (Nat.mod_lt _ (by decide)),
    Ideal.mulf_def, Ideal.subf_def, Ideal.ofBits_def]

end Cert.Value.Ref

end
-- ==== Proof.lean ====
/-
  The certificate of the int4 grouped-quantized matrix product. Both programs compute, over the extended reals,
  C[p, n] = Σ_K A[p, K] · ((nibble K of the packed weights) − 8) · s[K / 128, n]: the reference by one dot_general
  over the whole dequantized matrix, the kernel block by block over a grid (column strip, row strip, contraction
  step), dequantizing each weight tile once per strip into a cache, accumulating the four steps' partial products
  in a scratch accumulator from zero and copying it out at the last step. Changes of float format are the identity
  over the reals, and the two sums differ only in their grouping, which a sum in a commutative monoid does not see:
  no finiteness of the inputs is used. The three frames: each program runs to its end without a fault and leaves
  its arguments unchanged; the idealization rewrote nothing, so nothing is to be preserved.
-/
import proofs.«404393_j2190433321407_3_alg».proof.Defs
import proofs.«404393_j2190433321407_3_alg».proof.Proof.Gen.Kernel
import proofs.«404393_j2190433321407_3_alg».proof.Proof.Gen.KernelIdeal
import proofs.«404393_j2190433321407_3_alg».proof.Proof.Gen.ReferenceIdeal
import proofs.«404393_j2190433321407_3_alg».proof.Proof.Gen.Pre_finite_inputs
import proofs.«404393_j2190433321407_3_alg».proof.Proof.K.Body
import proofs.«404393_j2190433321407_3_alg».proof.Proof.Value.Final
import proofs.«404393_j2190433321407_3_alg».proof.Proof.Value.Ref
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame (F := Bits) m ρ

/-- So does the kernel read over the reals. -/
theorem frame_ki : Cert.frame_KernelIdeal := fun m ρ _ => Cert.KernelIdeal.Body.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the product of the arguments: the kernel's
    result array block by block, the reference's by its one dot_general, both the specification's function. -/
theorem algebraic : Cert.algebraic_KernelIdeal_ReferenceIdeal := by
  intro m ρ m' ρ' _ hagree
  refine ⟨fun c => Cert.Value.Ker.Gk m c, Cert.Value.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Value.Ref.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
